-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096x128 : Shape := ⟨2, ![4096, 128]⟩
abbrev S4096 : Shape := ⟨1, ![4096]⟩
abbrev S4096x64 : Shape := ⟨2, ![4096, 64]⟩
abbrev S64 : Shape := ⟨1, ![64]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096x128 : S_.BroadcastsInDim S4096x128 (![] : Fin 0 → Fin S4096x128.rank)
  reducesTo_S4096x128_S_d0_1 : S4096x128.ReducesTo [0, 1] S_
  bcast_S_S4096 : S_.BroadcastsInDim S4096 (![] : Fin 0 → Fin S4096.rank)
  reducesTo_S4096_S_d0 : S4096.ReducesTo [0] S_
  bcast_S_S4096x64 : S_.BroadcastsInDim S4096x64 (![] : Fin 0 → Fin S4096x64.rank)
  reducesTo_S4096x64_S_d0_1 : S4096x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S4096x64 .f32) (main_arg5 : FVec F S64 .f32) (main_arg6 : FVec F S4096x64 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096x64 .f32 := Host.absf main_arg4
  let main_cst_6 : FVec F S_ .f32 := constant S_ .f32 0x7F800000#32
  let main_v20 : FVec F S4096x64 .f32 := broadcastInDim S4096x64 ![] bcast_S_S4096x64 main_cst_6
  let main_v21 : IVec S4096x64 1 := cmpf .olt main_v19 main_v20
  let main_c_7 : IVec S_ 1 := constantI S_ 1 1#1
  let main_v22 : IVec S_ 1 := (fun x v => Host.reduce IntOp.andi x v reducesTo_S4096x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S4096x64 .f32 := Host.absf main_arg6
  let main_cst_10 : FVec F S_ .f32 := constant S_ .f32 0x7F800000#32
  let main_v30 : FVec F S4096x64 .f32 := broadcastInDim S4096x64 ![] bcast_S_S4096x64 main_cst_10
  let main_v31 : IVec S4096x64 1 := cmpf .olt main_v29 main_v30
  let main_c_11 : IVec S_ 1 := constantI S_ 1 1#1
  let main_v32 : IVec S_ 1 := (fun x v => Host.reduce IntOp.andi x v reducesTo_S4096x64_S_d0_1 h_S_) main_v31 main_c_11
  let main_v33 : IVec S_ 1 := andi main_v28 main_v32
  main_v33

def fn {F : FTy → Type} [FloatOps F] (main_arg0 : FVec F S8192x4096 .f32) (main_arg1 : FVec F S4096x4096 .f32) (main_arg2 : FVec F S4096x128 .f32) (main_arg3 : FVec F S4096 .f32) (main_arg4 : FVec F S4096x64 .f32) (main_arg5 : FVec F S64 .f32) (main_arg6 : FVec F S4096x64 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x128 .f32 := Host.absf main_arg2
  let main_cst_2 : FVec F S_ .f32 := constant S_ .f32 0x7F800000#32
  let main_v10 : FVec F S4096x128 .f32 := broadcastInDim S4096x128 ![] bcast_S_S4096x128 main_cst_2
  let main_v11 : IVec S4096x128 1 := cmpf .olt main_v9 main_v10
  let main_c_3 : IVec S_ 1 := constantI S_ 1 1#1
  let main_v12 : IVec S_ 1 := (fun x v => Host.reduce IntOp.andi x v reducesTo_S4096x128_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_v13 main_v16
-- ==== Kernel.lean ====
abbrev S8192x4096 : Shape := ⟨2, ![8192, 4096]⟩
abbrev S4096x4096 : Shape := ⟨2, ![4096, 4096]⟩
abbrev S4096x128 : Shape := ⟨2, ![4096, 128]⟩
abbrev S4096 : Shape := ⟨1, ![4096]⟩
abbrev S4096x64 : Shape := ⟨2, ![4096, 64]⟩
abbrev S64 : Shape := ⟨1, ![64]⟩
abbrev S128x4096 : Shape := ⟨2, ![128, 4096]⟩
abbrev S1x4096 : Shape := ⟨2, ![1, 4096]⟩
abbrev S1x64 : Shape := ⟨2, ![1, 64]⟩
abbrev S2048x256 : Shape := ⟨2, ![2048, 256]⟩
abbrev S1024x256 : Shape := ⟨2, ![1024, 256]⟩
abbrev S8x1024 : Shape := ⟨2, ![8, 1024]⟩
abbrev S1x1024 : Shape := ⟨2, ![1, 1024]⟩
abbrev S256x64 : Shape := ⟨2, ![256, 64]⟩
abbrev S1024x64 : Shape := ⟨2, ![1024, 64]⟩
abbrev S2048x1024 : Shape := ⟨2, ![2048, 1024]⟩
abbrev S2048x64 : Shape := ⟨2, ![2048, 64]⟩
abbrev S8x256 : Shape := ⟨2, ![8, 256]⟩

abbrev nBuf : Space → Nat
  | .hbm => 13
  | .vmem => 17
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x128, .f32⟩
  | .hbm, ⟨3, _⟩ => ⟨S4096, .f32⟩
  | .hbm, ⟨4, _⟩ => ⟨S4096x64, .f32⟩
  | .hbm, ⟨5, _⟩ => ⟨S64, .f32⟩
  | .hbm, ⟨6, _⟩ => ⟨S4096x64, .f32⟩
  | .hbm, ⟨7, _⟩ => ⟨S8192x4096, .bf16⟩
  | .hbm, ⟨8, _⟩ => ⟨S4096x4096, .bf16⟩
  | .hbm, ⟨9, _⟩ => ⟨S128x4096, .f32⟩
  | .hbm, ⟨10, _⟩ => ⟨S1x4096, .f32⟩
  | .hbm, ⟨11, _⟩ => ⟨S1x64, .f32⟩
  | .hbm, ⟨12, _⟩ => ⟨S8192x4096, .f32⟩
  | .local _ .vmem, ⟨0, _⟩ => ⟨S2048x256, .bf16⟩
  | .local _ .vmem, ⟨1, _⟩ => ⟨S2048x256, .bf16⟩
  | .local _ .vmem, ⟨2, _⟩ => ⟨S1024x256, .bf16⟩
  | .local _ .vmem, ⟨3, _⟩ => ⟨S1024x256, .bf16⟩
  | .local _ .vmem, ⟨4, _⟩ => ⟨S8x1024, .f32⟩
  | .local _ .vmem, ⟨5, _⟩ => ⟨S8x1024, .f32⟩
  | .local _ .vmem, ⟨6, _⟩ => ⟨S1x1024, .f32⟩
  | .local _ .vmem, ⟨7, _⟩ => ⟨S1x1024, .f32⟩
  | .local _ .vmem, ⟨8, _⟩ => ⟨S256x64, .f32⟩
  | .local _ .vmem, ⟨9, _⟩ => ⟨S256x64, .f32⟩
  | .local _ .vmem, ⟨10, _⟩ => ⟨S1024x64, .f32⟩
  | .local _ .vmem, ⟨11, _⟩ => ⟨S1024x64, .f32⟩
  | .local _ .vmem, ⟨12, _⟩ => ⟨S1x64, .f32⟩
  | .local _ .vmem, ⟨13, _⟩ => ⟨S2048x1024, .f32⟩
  | .local _ .vmem, ⟨14, _⟩ => ⟨S2048x1024, .f32⟩
  | .local _ .vmem, ⟨15, _⟩ => ⟨S2048x1024, .f32⟩
  | .local _ .vmem, ⟨16, _⟩ => ⟨S2048x64, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨3, ![4, 4, 16], ![false, false, false]⟩

def k0_cond2 (i : grid0.Coords) : BitVec 1 :=
  let arg2 : BitVec 32 := BitVec.ofNat 32 (i 2).val
  let c15_i32 : BitVec 32 := 15#32
  let v58 : BitVec 1 := Scalar.cmpi .eq arg2 c15_i32
  let v59 : BitVec 32 := Scalar.extui v58
  let c0_i32_23 : BitVec 32 := 0#32
  let v60 : BitVec 1 := Scalar.cmpi .ne v59 c0_i32_23
  v60

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1024x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S2048x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

class Facts₀ : Prop where
  bitsLt_bf16_f32 : FTy.bits .bf16 < FTy.bits .f32
  transposes_S4096x128_S128x4096_1_0 : S4096x128.Transposes [1, 0] S128x4096
  shapeCasts_S4096_S1x4096 : S4096.ShapeCasts S1x4096
  shapeCasts_S64_S1x64 : S64.ShapeCasts S1x64
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  iota_S8x256_d1_w32 : S8x256.Iotas .tc 32 [1]
  iota_S8x256_d0_w32 : S8x256.Iotas .tc 32 [0]
  natLt_1_32 : 1 < 32
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  inb_S1024x64_S1024x64_0_0 : ∀ a, (![0, 0] : Fin 2 → Nat) a + S1024x64.size a ≤ S1024x64.size a
  h_S1024x64 : 0 < S1024x64.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  dot_S8x1024_S8x256_S1024x256_0_0_1_1_n_n_wf : DotDims.WF S8x1024 S8x256 S1024x256 [0] [0] [1] [1] [] []
  dot_S2048x256_S1024x256_S2048x1024_1_1_0_0_n_n_wf : DotDims.WF S2048x256 S1024x256 S2048x1024 [1] [1] [0] [0] [] []
  dot_S2048x256_S256x64_S2048x64_1_0_0_1_n_n_wf : DotDims.WF S2048x256 S256x64 S2048x64 [1] [0] [0] [1] [] []
  dot_S2048x64_S1024x64_S2048x1024_1_1_0_0_n_n_wf : DotDims.WF S2048x64 S1024x64 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x4096.size a
  hwx0_0 : ∀ i : grid0.Coords, EltTy.bits .bf16 = 32 ∨ (Rect.block (s := S8192x4096) S2048x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S4096x4096.size a
  hwx0_1 : ∀ i : grid0.Coords, EltTy.bits .bf16 = 32 ∨ (Rect.block (s := S4096x4096) S1024x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1024.size a ≤ S128x4096.size a
  hwx0_2 : ∀ i : grid0.Coords, EltTy.bits .f32 = 32 ∨ (Rect.block (s := S128x4096) S8x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x64.size a ≤ S4096x64.size a
  hwx0_4 : ∀ i : grid0.Coords, EltTy.bits .f32 = 32 ∨ (Rect.block (s := S4096x64) S256x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x64.size a ≤ S4096x64.size a
  hwx0_5 : ∀ i : grid0.Coords, EltTy.bits .f32 = 32 ∨ (Rect.block (s := S4096x64) S1024x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x1024.size a ≤ S8192x4096.size a
  hwx0_7 : ∀ i : grid0.Coords, EltTy.bits .f32 = 32 ∨ (Rect.block (s := S8192x4096) S2048x1024.size (cc0_transform_7 i) (hinb0_7 i)).WholeWords (EltTy.packing .f32)

variable [Facts₀]

def dot_S8x1024_S8x256_S1024x256_0_0_1_1_n_n : DotDims S8x1024 S8x256 S1024x256 where
  lhsContracting := [0]
  rhsContracting := [0]
  lhsNonContracting := [1]
  rhsNonContracting := [1]
  lhsBatch := []
  rhsBatch := []
  wf := dot_S8x1024_S8x256_S1024x256_0_0_1_1_n_n_wf
def dot_S2048x256_S1024x256_S2048x1024_1_1_0_0_n_n : DotDims S2048x256 S1024x256 S2048x1024 where
  lhsContracting := [1]
  rhsContracting := [1]
  lhsNonContracting := [0]
  rhsNonContracting := [0]
  lhsBatch := []
  rhsBatch := []
  wf := dot_S2048x256_S1024x256_S2048x1024_1_1_0_0_n_n_wf
def dot_S2048x256_S256x64_S2048x64_1_0_0_1_n_n : DotDims S2048x256 S256x64 S2048x64 where
  lhsContracting := [1]
  rhsContracting := [0]
  lhsNonContracting := [0]
  rhsNonContracting := [1]
  lhsBatch := []
  rhsBatch := []
  wf := dot_S2048x256_S256x64_S2048x64_1_0_0_1_n_n_wf
def dot_S2048x64_S1024x64_S2048x1024_1_1_0_0_n_n : DotDims S2048x64 S1024x64 S2048x1024 where
  lhsContracting := [1]
  rhsContracting := [1]
  lhsNonContracting := [0]
  rhsNonContracting := [0]
  lhsBatch := []
  rhsBatch := []
  wf := dot_S2048x64_S1024x64_S2048x1024_1_1_0_0_n_n_wf

abbrev win0_0 : Pipeline.Window sig grid0 :=
  Pipeline.Window.ofSpec (Memref.whole main_v0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S256x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S1024x64.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S2048x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096x128 : Shape := ⟨2, ![4096, 128]⟩
abbrev S4096 : Shape := ⟨1, ![4096]⟩
abbrev S4096x64 : Shape := ⟨2, ![4096, 64]⟩
abbrev S64 : Shape := ⟨1, ![64]⟩
abbrev S8192x64 : Shape := ⟨2, ![8192, 64]⟩
abbrev S1x64 : Shape := ⟨2, ![1, 64]⟩
abbrev S64x4096 : Shape := ⟨2, ![64, 4096]⟩
abbrev S4096x128x32 : Shape := ⟨3, ![4096, 128, 32]⟩
abbrev S4096x128x1 : Shape := ⟨3, ![4096, 128, 1]⟩
abbrev S1x4096 : Shape := ⟨2, ![1, 4096]⟩

abbrev nBuf : Space → Nat
  | .hbm => 24
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x128, .f32⟩
  | .hbm, ⟨3, _⟩ => ⟨S4096, .f32⟩
  | .hbm, ⟨4, _⟩ => ⟨S4096x64, .f32⟩
  | .hbm, ⟨5, _⟩ => ⟨S64, .f32⟩
  | .hbm, ⟨6, _⟩ => ⟨S4096x64, .f32⟩
  | .hbm, ⟨7, _⟩ => ⟨S8192x64, .f32⟩
  | .hbm, ⟨8, _⟩ => ⟨S1x64, .f32⟩
  | .hbm, ⟨9, _⟩ => ⟨S8192x64, .f32⟩
  | .hbm, ⟨10, _⟩ => ⟨S8192x64, .f32⟩
  | .hbm, ⟨11, _⟩ => ⟨S64x4096, .f32⟩
  | .hbm, ⟨12, _⟩ => ⟨S8192x4096, .f32⟩
  | .hbm, ⟨13, _⟩ => ⟨S4096x128x32, .f32⟩
  | .hbm, ⟨14, _⟩ => ⟨S4096x128x1, .f32⟩
  | .hbm, ⟨15, _⟩ => ⟨S4096x128x32, .f32⟩
  | .hbm, ⟨16, _⟩ => ⟨S4096x128x32, .f32⟩
  | .hbm, ⟨17, _⟩ => ⟨S4096x4096, .f32⟩
  | .hbm, ⟨18, _⟩ => ⟨S4096x4096, .f32⟩
  | .hbm, ⟨19, _⟩ => ⟨S8192x4096, .f32⟩
  | .hbm, ⟨20, _⟩ => ⟨S1x4096, .f32⟩
  | .hbm, ⟨21, _⟩ => ⟨S8192x4096, .f32⟩
  | .hbm, ⟨22, _⟩ => ⟨S8192x4096, .f32⟩
  | .hbm, ⟨23, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  transposes_S4096x64_S64x4096_1_0 : S4096x64.Transposes [1, 0] S64x4096
  shapeCasts_S4096x4096_S4096x128x32 : S4096x4096.ShapeCasts S4096x128x32
  shapeCasts_S4096x128_S4096x128x1 : S4096x128.ShapeCasts S4096x128x1
  bcast_S4096x128x1_S4096x128x32_0_1_2 : S4096x128x1.BroadcastsInDim S4096x128x32 (![0, 1, 2] : Fin 3 → Fin S4096x128x32.rank)
  shapeCasts_S4096x128x32_S4096x4096 : S4096x128x32.ShapeCasts S4096x4096
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x64_S8192x64_1_0_0_1_n_n_wf : DotDims.WF S8192x4096 S4096x64 S8192x64 [1] [0] [0] [1] [] []
  dot_S8192x64_S64x4096_S8192x4096_1_0_0_1_n_n_wf : DotDims.WF S8192x64 S64x4096 S8192x4096 [1] [0] [0] [1] [] []
  dot_S8192x4096_S4096x4096_S8192x4096_1_0_0_1_n_n_wf : DotDims.WF S8192x4096 S4096x4096 S8192x4096 [1] [0] [0] [1] [] []

variable [Facts₀]

def dot_S8192x4096_S4096x64_S8192x64_1_0_0_1_n_n : DotDims S8192x4096 S4096x64 S8192x64 where
  lhsContracting := [1]
  rhsContracting := [0]
  lhsNonContracting := [0]
  rhsNonContracting := [1]
  lhsBatch := []
  rhsBatch := []
  wf := dot_S8192x4096_S4096x64_S8192x64_1_0_0_1_n_n_wf
def dot_S8192x64_S64x4096_S8192x4096_1_0_0_1_n_n : DotDims S8192x64 S64x4096 S8192x4096 where
  lhsContracting := [1]
  rhsContracting := [0]
  lhsNonContracting := [0]
  rhsNonContracting := [1]
  lhsBatch := []
  rhsBatch := []
  wf := dot_S8192x64_S64x4096_S8192x4096_1_0_0_1_n_n_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Spec.lean ====
/-
  A linear layer whose weight is stored block-scaled (one scale per 32 consecutive input features of an output row),
  plus a rank-64 correction ((x · V) ⊙ s) · Uᵀ, plus a bias: the one function of the seven argument arrays that both
  programs compute, written index by index over the extended reals, and the regrouping law that joins a sum taken
  tile by tile over the input features with the sum taken at once.
-/
import Idealize.ShloMosaic.PureOps.Ideal
import Idealize.ShloMosaic.Lib.ValueIdx
import Mathlib.Algebra.BigOperators.Fin

noncomputable section

open scoped BigOperators

namespace Cert.QLin

open Idealize.ShloMosaic Idealize.ShloMosaic.ValueIdx

/-- activations: 8192 tokens of 4096 input features -/
abbrev SX : Shape := ⟨2, ![8192, 4096]⟩
/-- stored weight: 4096 output features by 4096 input features -/
abbrev SW : Shape := ⟨2, ![4096, 4096]⟩
/-- scales: one per output feature and group of 32 input features -/
abbrev SS : Shape := ⟨2, ![4096, 128]⟩
/-- bias: one per output feature -/
abbrev SB : Shape := ⟨1, ![4096]⟩
/-- the two rank-64 factors: U over output features, V over input features -/
abbrev SU : Shape := ⟨2, ![4096, 64]⟩
/-- the 64 singular weights -/
abbrev SR : Shape := ⟨1, ![64]⟩

/-- The scale group of input feature `k`: 32 consecutive features share a scale. -/
def grp (k : Fin 4096) : Fin 128 := ⟨k.val / 32, by have := k.isLt; omega⟩

/-- The effective weight: the stored entry times its group's scale. -/
def deq (W : FVec Ideal SW .f32) (Sc : FVec Ideal SS .f32) (j k : Fin 4096) : EReal :=
  W (ix2 j k) * Sc (ix2 j (grp k))

/-- The main product: token `r` against output feature `j`'s effective weights. -/
def lin (X : FVec Ideal SX .f32) (W : FVec Ideal SW .f32) (Sc : FVec Ideal SS .f32) (r : Fin 8192) (j : Fin 4096) : EReal :=
  ∑ k : Fin 4096, X (ix2 r k) * deq W Sc j k

/-- Token `r` projected on the `q`-th right factor. -/
def hid (X : FVec Ideal SX .f32) (Vv : FVec Ideal SU .f32) (r : Fin 8192) (q : Fin 64) : EReal :=
  ∑ k : Fin 4096, X (ix2 r k) * Vv (ix2 k q)

/-- The rank-64 correction at token `r`, output feature `j`. -/
def low (X : FVec Ideal SX .f32) (Vv : FVec Ideal SU .f32) (Sv : FVec Ideal SR .f32) (U : FVec Ideal SU .f32)
    (r : Fin 8192) (j : Fin 4096) : EReal :=
  ∑ q : Fin 64, (hid X Vv r q * Sv (ix1 q)) * U (ix2 j q)

/-- The result at token `r`, output feature `j`: main product, plus correction, plus bias. -/
def Gat (X : FVec Ideal SX .f32) (W : FVec Ideal SW .f32) (Sc : FVec Ideal SS .f32) (B : FVec Ideal SB .f32)
    (U : FVec Ideal SU .f32) (Sv : FVec Ideal SR .f32) (Vv : FVec Ideal SU .f32) (r : Fin 8192) (j : Fin 4096) : EReal :=
  (lin X W Sc r j + low X Vv Sv U r j) + B (ix1 j)

/-- The whole result array, arguments in the programs' order. -/
def G (X : FVec Ideal SX .f32) (W : FVec Ideal SW .f32) (Sc : FVec Ideal SS .f32) (B : FVec Ideal SB .f32)
    (U : FVec Ideal SU .f32) (Sv : FVec Ideal SR .f32) (Vv : FVec Ideal SU .f32) : FVec Ideal SX .f32 :=
  fun i => Gat X W Sc B U Sv Vv ⟨(i 0).val, idx2_lt0 i⟩ ⟨(i 1).val, idx2_lt1 i⟩

theorem G_ix2 (X : FVec Ideal SX .f32) (W : FVec Ideal SW .f32) (Sc : FVec Ideal SS .f32) (B : FVec Ideal SB .f32)
    (U : FVec Ideal SU .f32) (Sv : FVec Ideal SR .f32) (Vv : FVec Ideal SU .f32) (r : Fin 8192) (j : Fin 4096) :
    G X W Sc B U Sv Vv (ix2 r j) = Gat X W Sc B U Sv Vv r j := rfl

/-! ## Regrouping a sum by tiles -/

/-- A sum over `a · b` consecutive naturals is the sum, over `a` tiles, of each tile's `b` terms. -/
theorem sum_range_tiles {M : Type*} [AddCommMonoid M] (f : ℕ → M) (a b : ℕ) :
    ∑ s ∈ Finset.range a, ∑ kk ∈ Finset.range b, f (b * s + kk) = ∑ k ∈ Finset.range (a * b), f k := by
  induction a with
  | zero => simp
  | succ a ih =>
    rw [Finset.sum_range_succ, ih, Nat.succ_mul, Finset.sum_range_add, Nat.mul_comm b a]

/-- The same with the terms indexed by `Fin`: 16 tiles of 256 make the 4096 input features. -/
theorem sum_tiles16 {M : Type*} [AddCommMonoid M] (f : ℕ → M) :
    ∑ s ∈ Finset.range 16, ∑ kk : Fin 256, f (256 * s + kk.val) = ∑ k : Fin 4096, f k.val := by
  rw [Fin.sum_univ_eq_sum_range (fun k => f k) 4096, ← sum_range_tiles f 16 256]
  refine Finset.sum_congr rfl fun s _ => ?_
  exact Fin.sum_univ_eq_sum_range (fun kk => f (256 * s + kk)) 256

end Cert.QLin

end
-- ==== Proof.RefValue.lean ====
/-
  The reference's composed term, read at an entry: the product of the activations with the transposed effective weights
  (stored weight regrouped by 32, times its group's scale, flattened back), plus the bias, added to the rank-64
  correction — the specification's function up to the order of the three summands.
-/
import proofs.«163543_j85289460564390_1_alg».proof.Proof.Spec
import proofs.«163543_j85289460564390_1_alg».proof.Proof.Gen.ReferenceIdeal.Read
import Idealize.ShloMosaic.Lib.ValueIdx
import Idealize.ShloMosaic.Lib.Pipeline.Value

noncomputable section

open scoped BigOperators

namespace Cert.QLin.Ref

open Idealize.ShloMosaic Idealize.ShloMosaic.ValueIdx Cert.ReferenceIdeal Cert.ReferenceIdeal.Read

/-! ## Where each operation reads: the composed index functions at explicit coordinates -/

/-- The correction's contraction reads its left operand at (token, rank index). -/
theorem lidx5_eq (r : Fin 8192) (j : Fin 4096) (q : Fin 64) : lidx_main_v5 (ix2 r j) q = ix2 r q :=
  funext fun a => Fin.ext (by match a with | ⟨0, _⟩ => rfl | ⟨1, _⟩ => rfl)

/-- … and its right operand at (rank index, output feature). -/
theorem ridx5_eq (r : Fin 8192) (j : Fin 4096) (q : Fin 64) : ridx_main_v5 (ix2 r j) q = ix2 q j :=
  funext fun a => Fin.ext (by match a with | ⟨0, _⟩ => rfl | ⟨1, _⟩ => rfl)

/-- The projection's contraction reads the activations at (token, input feature). -/
theorem lidx0_eq (r : Fin 8192) (q : Fin 64) (k : Fin 4096) : lidx_main_v0 (ix2 r q) k = ix2 r k :=
  funext fun a => Fin.ext (by match a with | ⟨0, _⟩ => rfl | ⟨1, _⟩ => rfl)

/-- … and the right factor at (input feature, rank index). -/
theorem ridx0_eq (r : Fin 8192) (q : Fin 64) (k : Fin 4096) : ridx_main_v0 (ix2 r q) k = ix2 k q :=
  funext fun a => Fin.ext (by match a with | ⟨0, _⟩ => rfl | ⟨1, _⟩ => rfl)

/-- The singular weights, broadcast twice, are read at the rank index. -/
theorem idx12_eq (r : Fin 8192) (q : Fin 64) : idx_main_v1 (idx_main_v2 (ix2 r q)) = ix1 q :=
  funext fun a => Fin.ext (by match a with | ⟨0, _⟩ => rfl)

/-- The transposed left factor at (rank index, output feature) is the factor at (output feature, rank index). -/
theorem idx4_eq (q : Fin 64) (j : Fin 4096) : idx_main_v4 (ix2 q j) = ix2 j q :=
  funext fun a => Fin.ext (by match a with | ⟨0, _⟩ => rfl | ⟨1, _⟩ => rfl)

/-- The main contraction reads the activations at (token, input feature). -/
theorem lidx12_eq (r : Fin 8192) (j k : Fin 4096) : lidx_main_v12 (ix2 r j) k = ix2 r k :=
  funext fun a => Fin.ext (by match a with | ⟨0, _⟩ => rfl | ⟨1, _⟩ => rfl)

/-- … and the transposed effective weight at (input feature, output feature). -/
theorem ridx12_eq (r : Fin 8192) (j k : Fin 4096) : ridx_main_v12 (ix2 r j) k = ix2 k j :=
  funext fun a => Fin.ext (by match a with | ⟨0, _⟩ => rfl | ⟨1, _⟩ => rfl)

/-- The transpose swaps the two coordinates. -/
theorem idx11_eq (j k : Fin 4096) : idx_main_v11 (ix2 k j) = ix2 j k :=
  funext fun a => Fin.ext (by match a with | ⟨0, _⟩ => rfl | ⟨1, _⟩ => rfl)

/-- Flattening the regrouped weight back and regrouping again lands on the same stored entry:
    ((j·128 + k/32)·32 + k%32 = j·4096 + k. -/
theorem idx6_eq (j k : Fin 4096) : idx_main_v6 (idx_main_v10 (ix2 j k)) = ix2 j k :=
  funext fun a => Fin.ext (by
    have hj : j.val < 4096 := j.isLt
    have hk : k.val < 4096 := k.isLt
    match a with
    | ⟨0, _⟩ =>
      show (((j.val * 4096 + k.val) / 4096 * 128 + (j.val * 4096 + k.val) / 32 % 128) * 32
        + (j.val * 4096 + k.val) % 32) / 4096 = j.val
      omega
    | ⟨1, _⟩ =>
      show (((j.val * 4096 + k.val) / 4096 * 128 + (j.val * 4096 + k.val) / 32 % 128) * 32
        + (j.val * 4096 + k.val) % 32) % 4096 = k.val
      omega)

/-- The scale that multiplies entry (j, k) of the regrouped weight is the one of output feature j and group k/32. -/
theorem idx7_eq (j k : Fin 4096) : idx_main_v7 (idx_main_v8 (idx_main_v10 (ix2 j k))) = ix2 j (grp k) :=
  funext fun a => Fin.ext (by
    have hj : j.val < 4096 := j.isLt
    have hk : k.val < 4096 := k.isLt
    match a with
    | ⟨0, _⟩ =>
      show ((((j.val * 4096 + k.val) / 4096 * 128 + (j.val * 4096 + k.val) / 32 % 128) * 1 + 0) / 128) = j.val
      omega
    | ⟨1, _⟩ =>
      show ((((j.val * 4096 + k.val) / 4096 * 128 + (j.val * 4096 + k.val) / 32 % 128) * 1 + 0) % 128) = k.val / 32
      omega)

/-- The bias, broadcast twice, is read at the output feature. -/
theorem idx1314_eq (r : Fin 8192) (j : Fin 4096) : idx_main_v13 (idx_main_v14 (ix2 r j)) = ix1 j :=
  funext fun a => Fin.ext (by match a with | ⟨0, _⟩ => rfl)

/-! ## The operations at explicit coordinates -/

/-- The projection of token `r` on the `q`-th right factor. -/
theorem v0_at (x0 : FVec Ideal S8192x4096 .f32) (x6 : FVec Ideal S4096x64 .f32) (r : Fin 8192) (q : Fin 64) :
    val_main_v0 (F := Ideal) x0 x6 (ix2 r q) = hid x0 x6 r q := by
  rw [val_main_v0_apply]
  unfold hid
  refine Finset.sum_congr rfl fun k _ => ?_
  rw [lidx0_eq, ridx0_eq]

/-- The broadcast singular weight at (token, rank index). -/
theorem v2_at (x5 : FVec Ideal S64 .f32) (r : Fin 8192) (q : Fin 64) :
    val_main_v2 (F := Ideal) x5 (ix2 r q) = x5 (ix1 q) := by
  rw [val_main_v2_apply, val_main_v1_apply, idx12_eq]

/-- The weighted projection. -/
theorem v3_at (x0 : FVec Ideal S8192x4096 .f32) (x5 : FVec Ideal S64 .f32) (x6 : FVec Ideal S4096x64 .f32)
    (r : Fin 8192) (q : Fin 64) :
    val_main_v3 (F := Ideal) x0 x5 x6 (ix2 r q) = hid x0 x6 r q * x5 (ix1 q) := by
  rw [val_main_v3_apply, Ideal.mulf_def, v0_at, v2_at]

/-- The transposed left factor. -/
theorem v4_at (x4 : FVec Ideal S4096x64 .f32) (q : Fin 64) (j : Fin 4096) :
    val_main_v4 (F := Ideal) x4 (ix2 q j) = x4 (ix2 j q) := by
  rw [val_main_v4_apply, idx4_eq]

/-- The rank-64 correction. -/
theorem v5_at (x0 : FVec Ideal S8192x4096 .f32) (x4 : FVec Ideal S4096x64 .f32) (x5 : FVec Ideal S64 .f32)
    (x6 : FVec Ideal S4096x64 .f32) (r : Fin 8192) (j : Fin 4096) :
    val_main_v5 (F := Ideal) x0 x4 x5 x6 (ix2 r j) = low x0 x6 x5 x4 r j := by
  rw [val_main_v5_apply]
  unfold low
  refine Finset.sum_congr rfl fun q _ => ?_
  rw [lidx5_eq, ridx5_eq, v3_at, v4_at]

/-- The effective weight, regrouped, scaled and flattened back, at (output feature, input feature). -/
theorem v10_at (x1 : FVec Ideal S4096x4096 .f32) (x2 : FVec Ideal S4096x128 .f32) (j k : Fin 4096) :
    val_main_v10 (F := Ideal) x1 x2 (ix2 j k) = deq x1 x2 j k := by
  rw [val_main_v10_apply, val_main_v9_apply, val_main_v6_apply, val_main_v8_apply, val_main_v7_apply,
    Ideal.mulf_def, idx6_eq, idx7_eq]
  rfl

/-- Its transpose, at (input feature, output feature). -/
theorem v11_at (x1 : FVec Ideal S4096x4096 .f32) (x2 : FVec Ideal S4096x128 .f32) (j k : Fin 4096) :
    val_main_v11 (F := Ideal) x1 x2 (ix2 k j) = deq x1 x2 j k := by
  rw [val_main_v11_apply, idx11_eq, v10_at]

/-- The main product. -/
theorem v12_at (x0 : FVec Ideal S8192x4096 .f32) (x1 : FVec Ideal S4096x4096 .f32) (x2 : FVec Ideal S4096x128 .f32)
    (r : Fin 8192) (j : Fin 4096) :
    val_main_v12 (F := Ideal) x0 x1 x2 (ix2 r j) = lin x0 x1 x2 r j := by
  rw [val_main_v12_apply]
  unfold lin
  refine Finset.sum_congr rfl fun k _ => ?_
  rw [lidx12_eq, ridx12_eq, v11_at]

/-- The broadcast bias. -/
theorem v14_at (x3 : FVec Ideal S4096 .f32) (r : Fin 8192) (j : Fin 4096) :
    val_main_v14 (F := Ideal) x3 (ix2 r j) = x3 (ix1 j) := by
  rw [val_main_v14_apply, val_main_v13_apply, idx1314_eq]

/-- The reference's result is the specification's function of the seven arguments. -/
theorem ref_eq (x0 : FVec Ideal S8192x4096 .f32) (x1 : FVec Ideal S4096x4096 .f32) (x2 : FVec Ideal S4096x128 .f32)
    (x3 : FVec Ideal S4096 .f32) (x4 : FVec Ideal S4096x64 .f32) (x5 : FVec Ideal S64 .f32) (x6 : FVec Ideal S4096x64 .f32) :
    val_main_v16 (F := Ideal) x0 x1 x2 x3 x4 x5 x6 = Cert.QLin.G x0 x1 x2 x3 x4 x5 x6 := by
  funext i
  obtain ⟨r, j, rfl⟩ : ∃ (r : Fin 8192) (j : Fin 4096), i = ix2 r j := ⟨i 0, i 1, eq_ix2 i⟩
  rw [G_ix2, val_main_v16_apply, val_main_v15_apply, Ideal.addf_def, Ideal.addf_def, v5_at, v12_at, v14_at]
  unfold Gat
  -- correction + (main + bias) = (main + correction) + bias
  rw [add_comm (lin x0 x1 x2 r j) (low x0 x6 x5 x4 r j), add_assoc]

end Cert.QLin.Ref

end
-- ==== Proof.Pieces.lean ====
/-
  What the body leaves in the two running sums and in the output block, case by case, as the body's own arithmetic:
  at the first tile of a run the sums restart from zero and take the tile's products; at every later tile they take
  the tile's products on top of what the tile before left; at the last tile the output block is the closing value
  over the two sums as that tile leaves them.
-/
import proofs.«163543_j85289460564390_1_alg».proof.Proof.Gen.KernelIdeal.Frame
import Idealize.ShloMosaic.Lib.Pipeline.Value
import Idealize.ShloMosaic.Lib.Tactic

set_option maxRecDepth 16384

noncomputable section

namespace Cert.QLin.Piece

open Idealize.ShloMosaic Idealize.ShloMosaic.TcCoe Idealize.ShloMosaic.Tactic Idealize.SL.Sem Cert.KernelIdeal Cert.KernelIdeal.Gen

variable {F : FTy → Type} [FloatOps F]

/-- Every load and store of the body is through the whole buffer, at offset zero on both axes. -/
theorem hz : (![0, 0] : Fin 2 → Nat) = fun _ => 0 := by funext a; fin_cases a <;> rfl

/-- First tile of a run: the main sum restarts from zero and takes the tile's products. -/
theorem sumA (c : Dev nD) (i : grid0.Coords) (arg3 : Memref sig .tc .vmem S2048x256 .bf16) (harg3 : arg3.IsWhole) (arg4 : Memref sig .tc .vmem S1024x256 .bf16) (harg4 : arg4.IsWhole) (arg5 : Memref sig .tc .vmem S8x1024 .f32) (harg5 : arg5.IsWhole) (arg6 : Memref sig .tc .vmem S1x1024 .f32) (harg6 : arg6.IsWhole) (arg7 : Memref sig .tc .vmem S256x64 .f32) (harg7 : arg7.IsWhole) (arg8 : Memref sig .tc .vmem S1024x64 .f32) (harg8 : arg8.IsWhole) (arg9 : Memref sig .tc .vmem S1x64 .f32) (harg9 : arg9.IsWhole) (arg10 : Memref sig .tc .vmem S2048x1024 .f32) (harg10 : arg10.IsWhole) (arg11 : Memref sig .tc .vmem S2048x1024 .f32) (harg11 : arg11.IsWhole) (arg12 : Memref sig .tc .vmem S2048x64 .f32) (harg12 : arg12.IsWhole) (hc0 : cond0_0 i) (hc1 : ¬cond0_1 i)
    (x0 : Vec F S2048x256 .bf16) (x1 : Vec F S1024x256 .bf16) (x2 : Vec F S8x1024 .f32) (x3 : Vec F S1x1024 .f32) (x4 : Vec F S256x64 .f32) (x5 : Vec F S1024x64 .f32) (x6 : Vec F S1x64 .f32) :
    sout0_A_0 c i arg3 harg3 arg4 harg4 arg5 harg5 arg6 harg6 arg7 harg7 arg8 harg8 arg9 harg9 arg10 harg10 arg11 harg11 arg12 harg12 hc0 hc1 x0 x1 x2 x3 x4 x5 x6 = k0_pay2 (k0_pay7 x2 x1) x0 k0_pay5 := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 hc0 hc1 x0 x1 x2 x3 x4 x5 x6)]
  unfold kernelRun0_A
  dsimp only
  sl_unfold_words
  rw [View.canon_cons_unit_zero (S := S2048x1024) hz]
  simp only [View.readAt_eq_ld, harg3.read_unread, harg4.read_unread, harg5.read_unread, harg6.read_unread, harg7.read_unread, harg8.read_unread, harg9.read_unread, harg11.read_unread, harg12.read_unread, View.ld_unit_zero (S := S2048x256) hz, View.ld_unit_zero (S := S1024x256) hz, View.ld_unit_zero (S := S8x1024) hz, View.ld_unit_zero (S := S1x1024) hz, View.ld_unit_zero (S := S256x64) hz, View.ld_unit_zero (S := S1024x64) hz, View.ld_unit_zero (S := S1x64) hz, View.ld_unit_zero (S := S2048x1024) hz, View.ld_unit_zero (S := S2048x64) hz,
    View.readCov_unit_zero (S := S2048x1024) _ hz, View.readCov_unit_zero (S := S2048x64) _ hz]

/-- First tile of a run: the projection's sum restarts from zero and takes the tile's products. -/
theorem projA (c : Dev nD) (i : grid0.Coords) (arg3 : Memref sig .tc .vmem S2048x256 .bf16) (harg3 : arg3.IsWhole) (arg4 : Memref sig .tc .vmem S1024x256 .bf16) (harg4 : arg4.IsWhole) (arg5 : Memref sig .tc .vmem S8x1024 .f32) (harg5 : arg5.IsWhole) (arg6 : Memref sig .tc .vmem S1x1024 .f32) (harg6 : arg6.IsWhole) (arg7 : Memref sig .tc .vmem S256x64 .f32) (harg7 : arg7.IsWhole) (arg8 : Memref sig .tc .vmem S1024x64 .f32) (harg8 : arg8.IsWhole) (arg9 : Memref sig .tc .vmem S1x64 .f32) (harg9 : arg9.IsWhole) (arg10 : Memref sig .tc .vmem S2048x1024 .f32) (harg10 : arg10.IsWhole) (arg11 : Memref sig .tc .vmem S2048x1024 .f32) (harg11 : arg11.IsWhole) (arg12 : Memref sig .tc .vmem S2048x64 .f32) (harg12 : arg12.IsWhole) (hc0 : cond0_0 i) (hc1 : ¬cond0_1 i)
    (x0 : Vec F S2048x256 .bf16) (x1 : Vec F S1024x256 .bf16) (x2 : Vec F S8x1024 .f32) (x3 : Vec F S1x1024 .f32) (x4 : Vec F S256x64 .f32) (x5 : Vec F S1024x64 .f32) (x6 : Vec F S1x64 .f32) :
    sout0_A_1 c i arg3 harg3 arg4 harg4 arg5 harg5 arg6 harg6 arg7 harg7 arg8 harg8 arg9 harg9 arg10 harg10 arg11 harg11 arg12 harg12 hc0 hc1 x0 x1 x2 x3 x4 x5 x6 = k0_pay3 x0 x4 k0_pay6 := by
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 hc0 hc1 x0 x1 x2 x3 x4 x5 x6)]
  unfold kernelRun0_A
  dsimp only
  sl_unfold_words
  rw [View.canon_cons_unit_zero (S := S2048x64) hz]
  simp only [View.readAt_eq_ld, harg3.read_unread, harg4.read_unread, harg5.read_unread, harg6.read_unread, harg7.read_unread, harg8.read_unread, harg9.read_unread, harg11.read_unread, harg12.read_unread, View.ld_unit_zero (S := S2048x256) hz, View.ld_unit_zero (S := S1024x256) hz, View.ld_unit_zero (S := S8x1024) hz, View.ld_unit_zero (S := S1x1024) hz, View.ld_unit_zero (S := S256x64) hz, View.ld_unit_zero (S := S1024x64) hz, View.ld_unit_zero (S := S1x64) hz, View.ld_unit_zero (S := S2048x1024) hz, View.ld_unit_zero (S := S2048x64) hz,
    View.readCov_unit_zero (S := S2048x1024) _ hz, View.readCov_unit_zero (S := S2048x64) _ hz]

/-- A middle tile: the main sum takes the tile's products on top of what the tile before left. -/
theorem sumB (c : Dev nD) (i : grid0.Coords) (arg3 : Memref sig .tc .vmem S2048x256 .bf16) (harg3 : arg3.IsWhole) (arg4 : Memref sig .tc .vmem S1024x256 .bf16) (harg4 : arg4.IsWhole) (arg5 : Memref sig .tc .vmem S8x1024 .f32) (harg5 : arg5.IsWhole) (arg6 : Memref sig .tc .vmem S1x1024 .f32) (harg6 : arg6.IsWhole) (arg7 : Memref sig .tc .vmem S256x64 .f32) (harg7 : arg7.IsWhole) (arg8 : Memref sig .tc .vmem S1024x64 .f32) (harg8 : arg8.IsWhole) (arg9 : Memref sig .tc .vmem S1x64 .f32) (harg9 : arg9.IsWhole) (arg10 : Memref sig .tc .vmem S2048x1024 .f32) (harg10 : arg10.IsWhole) (arg11 : Memref sig .tc .vmem S2048x1024 .f32) (harg11 : arg11.IsWhole) (arg12 : Memref sig .tc .vmem S2048x64 .f32) (harg12 : arg12.IsWhole) (hc0 : ¬cond0_0 i) (hc1 : ¬cond0_1 i)
    (x0 : Vec F S2048x256 .bf16) (x1 : Vec F S1024x256 .bf16) (x2 : Vec F S8x1024 .f32) (x3 : Vec F S1x1024 .f32) (x4 : Vec F S256x64 .f32) (x5 : Vec F S1024x64 .f32) (x6 : Vec F S1x64 .f32) (xs0 : Vec F S2048x1024 .f32) (xs1 : Vec F S2048x64 .f32) :
    sout0_B_0 c i arg3 harg3 arg4 harg4 arg5 harg5 arg6 harg6 arg7 harg7 arg8 harg8 arg9 harg9 arg10 harg10 arg11 harg11 arg12 harg12 hc0 hc1 x0 x1 x2 x3 x4 x5 x6 xs0 xs1 = k0_pay2 (k0_pay7 x2 x1) x0 xs0 := by
  unfold sout0_B_0
  rw [View.read_writes_eq_canon _ _ _ (scover0_B_0 c i arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun0_B
  dsimp only
  sl_unfold_words
  rw [View.canon_unit_zero hz]
  simp only [View.readAt_eq_ld, harg3.read_unread, harg4.read_unread, harg5.read_unread, harg6.read_unread, harg7.read_unread, harg8.read_unread, harg9.read_unread, harg11.read_unread, harg12.read_unread, View.ld_unit_zero (S := S2048x256) hz, View.ld_unit_zero (S := S1024x256) hz, View.ld_unit_zero (S := S8x1024) hz, View.ld_unit_zero (S := S1x1024) hz, View.ld_unit_zero (S := S256x64) hz, View.ld_unit_zero (S := S1024x64) hz, View.ld_unit_zero (S := S1x64) hz, View.ld_unit_zero (S := S2048x1024) hz, View.ld_unit_zero (S := S2048x64) hz,
    View.readCov_unit_zero (S := S2048x1024) _ hz, View.readCov_unit_zero (S := S2048x64) _ hz]

/-- A middle tile: the projection's sum likewise. -/
theorem projB (c : Dev nD) (i : grid0.Coords) (arg3 : Memref sig .tc .vmem S2048x256 .bf16) (harg3 : arg3.IsWhole) (arg4 : Memref sig .tc .vmem S1024x256 .bf16) (harg4 : arg4.IsWhole) (arg5 : Memref sig .tc .vmem S8x1024 .f32) (harg5 : arg5.IsWhole) (arg6 : Memref sig .tc .vmem S1x1024 .f32) (harg6 : arg6.IsWhole) (arg7 : Memref sig .tc .vmem S256x64 .f32) (harg7 : arg7.IsWhole) (arg8 : Memref sig .tc .vmem S1024x64 .f32) (harg8 : arg8.IsWhole) (arg9 : Memref sig .tc .vmem S1x64 .f32) (harg9 : arg9.IsWhole) (arg10 : Memref sig .tc .vmem S2048x1024 .f32) (harg10 : arg10.IsWhole) (arg11 : Memref sig .tc .vmem S2048x1024 .f32) (harg11 : arg11.IsWhole) (arg12 : Memref sig .tc .vmem S2048x64 .f32) (harg12 : arg12.IsWhole) (hc0 : ¬cond0_0 i) (hc1 : ¬cond0_1 i)
    (x0 : Vec F S2048x256 .bf16) (x1 : Vec F S1024x256 .bf16) (x2 : Vec F S8x1024 .f32) (x3 : Vec F S1x1024 .f32) (x4 : Vec F S256x64 .f32) (x5 : Vec F S1024x64 .f32) (x6 : Vec F S1x64 .f32) (xs0 : Vec F S2048x1024 .f32) (xs1 : Vec F S2048x64 .f32) :
    sout0_B_1 c i arg3 harg3 arg4 harg4 arg5 harg5 arg6 harg6 arg7 harg7 arg8 harg8 arg9 harg9 arg10 harg10 arg11 harg11 arg12 harg12 hc0 hc1 x0 x1 x2 x3 x4 x5 x6 xs0 xs1 = k0_pay3 x0 x4 xs1 := by
  unfold sout0_B_1
  rw [View.read_writes_eq_canon _ _ _ (scover0_B_1 c i arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun0_B
  dsimp only
  sl_unfold_words
  rw [View.canon_unit_zero hz]
  simp only [View.readAt_eq_ld, harg3.read_unread, harg4.read_unread, harg5.read_unread, harg6.read_unread, harg7.read_unread, harg8.read_unread, harg9.read_unread, harg11.read_unread, harg12.read_unread, View.ld_unit_zero (S := S2048x256) hz, View.ld_unit_zero (S := S1024x256) hz, View.ld_unit_zero (S := S8x1024) hz, View.ld_unit_zero (S := S1x1024) hz, View.ld_unit_zero (S := S256x64) hz, View.ld_unit_zero (S := S1024x64) hz, View.ld_unit_zero (S := S1x64) hz, View.ld_unit_zero (S := S2048x1024) hz, View.ld_unit_zero (S := S2048x64) hz,
    View.readCov_unit_zero (S := S2048x1024) _ hz, View.readCov_unit_zero (S := S2048x64) _ hz]

/-- The last tile: the main sum takes its products as a middle tile does. -/
theorem sumC (c : Dev nD) (i : grid0.Coords) (arg3 : Memref sig .tc .vmem S2048x256 .bf16) (harg3 : arg3.IsWhole) (arg4 : Memref sig .tc .vmem S1024x256 .bf16) (harg4 : arg4.IsWhole) (arg5 : Memref sig .tc .vmem S8x1024 .f32) (harg5 : arg5.IsWhole) (arg6 : Memref sig .tc .vmem S1x1024 .f32) (harg6 : arg6.IsWhole) (arg7 : Memref sig .tc .vmem S256x64 .f32) (harg7 : arg7.IsWhole) (arg8 : Memref sig .tc .vmem S1024x64 .f32) (harg8 : arg8.IsWhole) (arg9 : Memref sig .tc .vmem S1x64 .f32) (harg9 : arg9.IsWhole) (arg10 : Memref sig .tc .vmem S2048x1024 .f32) (harg10 : arg10.IsWhole) (arg11 : Memref sig .tc .vmem S2048x1024 .f32) (harg11 : arg11.IsWhole) (arg12 : Memref sig .tc .vmem S2048x64 .f32) (harg12 : arg12.IsWhole) (hc0 : ¬cond0_0 i) (hc1 : cond0_1 i)
    (x0 : Vec F S2048x256 .bf16) (x1 : Vec F S1024x256 .bf16) (x2 : Vec F S8x1024 .f32) (x3 : Vec F S1x1024 .f32) (x4 : Vec F S256x64 .f32) (x5 : Vec F S1024x64 .f32) (x6 : Vec F S1x64 .f32) (xs0 : Vec F S2048x1024 .f32) (xs1 : Vec F S2048x64 .f32) :
    sout0_C_0 c i arg3 harg3 arg4 harg4 arg5 harg5 arg6 harg6 arg7 harg7 arg8 harg8 arg9 harg9 arg10 harg10 arg11 harg11 arg12 harg12 hc0 hc1 x0 x1 x2 x3 x4 x5 x6 xs0 xs1 = k0_pay2 (k0_pay7 x2 x1) x0 xs0 := by
  unfold sout0_C_0
  rw [View.read_writes_eq_canon _ _ _ (scover0_C_0 c i arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun0_C
  dsimp only
  sl_unfold_words
  rw [View.canon_unit_zero hz]
  simp only [View.readAt_eq_ld, harg3.read_unread, harg4.read_unread, harg5.read_unread, harg6.read_unread, harg7.read_unread, harg8.read_unread, harg9.read_unread, harg11.read_unread, harg12.read_unread, View.ld_unit_zero (S := S2048x256) hz, View.ld_unit_zero (S := S1024x256) hz, View.ld_unit_zero (S := S8x1024) hz, View.ld_unit_zero (S := S1x1024) hz, View.ld_unit_zero (S := S256x64) hz, View.ld_unit_zero (S := S1024x64) hz, View.ld_unit_zero (S := S1x64) hz, View.ld_unit_zero (S := S2048x1024) hz, View.ld_unit_zero (S := S2048x64) hz,
    View.readCov_unit_zero (S := S2048x1024) _ hz, View.readCov_unit_zero (S := S2048x64) _ hz]

/-- The last tile: the projection's sum likewise. -/
theorem projC (c : Dev nD) (i : grid0.Coords) (arg3 : Memref sig .tc .vmem S2048x256 .bf16) (harg3 : arg3.IsWhole) (arg4 : Memref sig .tc .vmem S1024x256 .bf16) (harg4 : arg4.IsWhole) (arg5 : Memref sig .tc .vmem S8x1024 .f32) (harg5 : arg5.IsWhole) (arg6 : Memref sig .tc .vmem S1x1024 .f32) (harg6 : arg6.IsWhole) (arg7 : Memref sig .tc .vmem S256x64 .f32) (harg7 : arg7.IsWhole) (arg8 : Memref sig .tc .vmem S1024x64 .f32) (harg8 : arg8.IsWhole) (arg9 : Memref sig .tc .vmem S1x64 .f32) (harg9 : arg9.IsWhole) (arg10 : Memref sig .tc .vmem S2048x1024 .f32) (harg10 : arg10.IsWhole) (arg11 : Memref sig .tc .vmem S2048x1024 .f32) (harg11 : arg11.IsWhole) (arg12 : Memref sig .tc .vmem S2048x64 .f32) (harg12 : arg12.IsWhole) (hc0 : ¬cond0_0 i) (hc1 : cond0_1 i)
    (x0 : Vec F S2048x256 .bf16) (x1 : Vec F S1024x256 .bf16) (x2 : Vec F S8x1024 .f32) (x3 : Vec F S1x1024 .f32) (x4 : Vec F S256x64 .f32) (x5 : Vec F S1024x64 .f32) (x6 : Vec F S1x64 .f32) (xs0 : Vec F S2048x1024 .f32) (xs1 : Vec F S2048x64 .f32) :
    sout0_C_1 c i arg3 harg3 arg4 harg4 arg5 harg5 arg6 harg6 arg7 harg7 arg8 harg8 arg9 harg9 arg10 harg10 arg11 harg11 arg12 harg12 hc0 hc1 x0 x1 x2 x3 x4 x5 x6 xs0 xs1 = k0_pay3 x0 x4 xs1 := by
  unfold sout0_C_1
  rw [View.read_writes_eq_canon _ _ _ (scover0_C_1 c i arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun0_C
  dsimp only
  sl_unfold_words
  rw [View.canon_unit_zero hz]
  simp only [View.readAt_eq_ld, harg3.read_unread, harg4.read_unread, harg5.read_unread, harg6.read_unread, harg7.read_unread, harg8.read_unread, harg9.read_unread, harg11.read_unread, harg12.read_unread, View.ld_unit_zero (S := S2048x256) hz, View.ld_unit_zero (S := S1024x256) hz, View.ld_unit_zero (S := S8x1024) hz, View.ld_unit_zero (S := S1x1024) hz, View.ld_unit_zero (S := S256x64) hz, View.ld_unit_zero (S := S1024x64) hz, View.ld_unit_zero (S := S1x64) hz, View.ld_unit_zero (S := S2048x1024) hz, View.ld_unit_zero (S := S2048x64) hz,
    View.readCov_unit_zero (S := S2048x1024) _ hz, View.readCov_unit_zero (S := S2048x64) _ hz]

/-- The last tile: the output block is the closing value over the two sums as this tile leaves them. -/
theorem outC (c : Dev nD) (i : grid0.Coords) (arg3 : Memref sig .tc .vmem S2048x256 .bf16) (harg3 : arg3.IsWhole) (arg4 : Memref sig .tc .vmem S1024x256 .bf16) (harg4 : arg4.IsWhole) (arg5 : Memref sig .tc .vmem S8x1024 .f32) (harg5 : arg5.IsWhole) (arg6 : Memref sig .tc .vmem S1x1024 .f32) (harg6 : arg6.IsWhole) (arg7 : Memref sig .tc .vmem S256x64 .f32) (harg7 : arg7.IsWhole) (arg8 : Memref sig .tc .vmem S1024x64 .f32) (harg8 : arg8.IsWhole) (arg9 : Memref sig .tc .vmem S1x64 .f32) (harg9 : arg9.IsWhole) (arg10 : Memref sig .tc .vmem S2048x1024 .f32) (harg10 : arg10.IsWhole) (arg11 : Memref sig .tc .vmem S2048x1024 .f32) (harg11 : arg11.IsWhole) (arg12 : Memref sig .tc .vmem S2048x64 .f32) (harg12 : arg12.IsWhole) (hc0 : ¬cond0_0 i) (hc1 : cond0_1 i)
    (x0 : Vec F S2048x256 .bf16) (x1 : Vec F S1024x256 .bf16) (x2 : Vec F S8x1024 .f32) (x3 : Vec F S1x1024 .f32) (x4 : Vec F S256x64 .f32) (x5 : Vec F S1024x64 .f32) (x6 : Vec F S1x64 .f32) (xs0 : Vec F S2048x1024 .f32) (xs1 : Vec F S2048x64 .f32) :
    out0_C_7 c i arg3 harg3 arg4 harg4 arg5 harg5 arg6 harg6 arg7 harg7 arg8 harg8 arg9 harg9 arg10 harg10 arg11 harg11 arg12 harg12 hc0 hc1 x0 x1 x2 x3 x4 x5 x6 xs0 xs1 = k0_pay4 (k0_pay3 x0 x4 xs1) x6 x5 (k0_pay2 (k0_pay7 x2 x1) x0 xs0) x3 := by
  unfold out0_C_7
  rw [View.read_writes_eq_canon _ _ _ (cover0_C_7 c i arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun0_C
  dsimp only
  sl_unfold_words
  rw [View.canon_unit_zero hz]
  simp only [View.readAt_eq_ld, harg3.read_unread, harg4.read_unread, harg5.read_unread, harg6.read_unread, harg7.read_unread, harg8.read_unread, harg9.read_unread, harg11.read_unread, harg12.read_unread, View.ld_unit_zero (S := S2048x256) hz, View.ld_unit_zero (S := S1024x256) hz, View.ld_unit_zero (S := S8x1024) hz, View.ld_unit_zero (S := S1x1024) hz, View.ld_unit_zero (S := S256x64) hz, View.ld_unit_zero (S := S1024x64) hz, View.ld_unit_zero (S := S1x64) hz, View.ld_unit_zero (S := S2048x1024) hz, View.ld_unit_zero (S := S2048x64) hz,
    View.readCov_unit_zero (S := S2048x1024) _ hz, View.readCov_unit_zero (S := S2048x64) _ hz]

end Cert.QLin.Piece

end
-- ==== Proof.Payload.lean ====
/-
  The kernel body's arithmetic, read at one entry of each stored value, over the extended reals: the block of effective
  weights (stored entry times the scale its group of 32 input features selects — the selection written as a product with
  a 0/1 matrix), the two running sums (main product and projection), and the closing value (running sum plus the
  rank-64 correction plus the bias row).
-/
import proofs.«163543_j85289460564390_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.QLin.Pay

open Idealize.ShloMosaic Idealize.ShloMosaic.ValueIdx Cert.KernelIdeal Cert.KernelIdeal.Gen

/-! ### The main product: rows of the activations against rows of the effective weights, both contracted along their second axis -/

theorem lhs_main_0 (i : S2048x1024.Idx) (q : dot_S2048x256_S1024x256_S2048x1024_1_1_0_0_n_n.contr.Idx) :
    (dot_S2048x256_S1024x256_S2048x1024_1_1_0_0_n_n.lhsIdx i q 0).val = (i 0).val := by
  unfold DotDims.lhsIdx
  rw [dif_neg (show ¬(0 : Fin S2048x256.rank) ∈ dot_S2048x256_S1024x256_S2048x1024_1_1_0_0_n_n.lhsBatch by decide), dif_pos (show (0 : Fin S2048x256.rank) ∈ dot_S2048x256_S1024x256_S2048x1024_1_1_0_0_n_n.lhsNonContracting by decide)]
  rfl
theorem lhs_main_1 (i : S2048x1024.Idx) (q : dot_S2048x256_S1024x256_S2048x1024_1_1_0_0_n_n.contr.Idx) :
    (dot_S2048x256_S1024x256_S2048x1024_1_1_0_0_n_n.lhsIdx i q 1).val = (q ⟨0, by decide⟩).val :=
  dot_S2048x256_S1024x256_S2048x1024_1_1_0_0_n_n.lhsIdx_val_of_single rfl i q
theorem rhs_main_0 (i : S2048x1024.Idx) (q : dot_S2048x256_S1024x256_S2048x1024_1_1_0_0_n_n.contr.Idx) :
    (dot_S2048x256_S1024x256_S2048x1024_1_1_0_0_n_n.rhsIdx i q 0).val = (i 1).val := by
  unfold DotDims.rhsIdx
  rw [dif_neg (show ¬(0 : Fin S1024x256.rank) ∈ dot_S2048x256_S1024x256_S2048x1024_1_1_0_0_n_n.rhsBatch by decide), dif_pos (show (0 : Fin S1024x256.rank) ∈ dot_S2048x256_S1024x256_S2048x1024_1_1_0_0_n_n.rhsNonContracting by decide)]
  rfl
theorem rhs_main_1 (i : S2048x1024.Idx) (q : dot_S2048x256_S1024x256_S2048x1024_1_1_0_0_n_n.contr.Idx) :
    (dot_S2048x256_S1024x256_S2048x1024_1_1_0_0_n_n.rhsIdx i q 1).val = (q ⟨0, by decide⟩).val :=
  dot_S2048x256_S1024x256_S2048x1024_1_1_0_0_n_n.rhsIdx_val_of_single rfl i q
/-- The product read at (p, c): the sum over the one contracted coordinate of the operands' products. -/
theorem mm_main_apply (x : FVec Ideal S2048x256 .bf16) (y : FVec Ideal S1024x256 .bf16) (p : Fin 2048) (c : Fin 1024) :
    matmul (F := Ideal) dot_S2048x256_S1024x256_S2048x1024_1_1_0_0_n_n none x y (constant S2048x1024 .f32 0x00000000#32) (ix2 p c)
      = ∑ k : Fin 256, x (ix2 p k) * y (ix2 c k) := by
  show FloatOps.matmul dot_S2048x256_S1024x256_S2048x1024_1_1_0_0_n_n none x y (constant S2048x1024 .f32 0x00000000#32) (ix2 p c) = _
  rw [Ideal.matmul_constant_zero_apply, ← Equiv.sum_comp (ValueIdx.contrEquiv1 dot_S2048x256_S1024x256_S2048x1024_1_1_0_0_n_n 256 rfl rfl).symm]
  refine Finset.sum_congr rfl fun k _ => ?_
  have hk := ValueIdx.contrEquiv1_symm_val dot_S2048x256_S1024x256_S2048x1024_1_1_0_0_n_n 256 rfl rfl k
  have el : dot_S2048x256_S1024x256_S2048x1024_1_1_0_0_n_n.lhsIdx (ix2 p c) ((ValueIdx.contrEquiv1 dot_S2048x256_S1024x256_S2048x1024_1_1_0_0_n_n 256 rfl rfl).symm k) = ix2 p k := funext fun a => Fin.ext (by
    match a with
    | ⟨0, _⟩ => exact lhs_main_0 _ _
    | ⟨1, _⟩ => exact (lhs_main_1 _ _).trans hk)
  have er : dot_S2048x256_S1024x256_S2048x1024_1_1_0_0_n_n.rhsIdx (ix2 p c) ((ValueIdx.contrEquiv1 dot_S2048x256_S1024x256_S2048x1024_1_1_0_0_n_n 256 rfl rfl).symm k) = ix2 c k := funext fun a => Fin.ext (by
    match a with
    | ⟨0, _⟩ => exact rhs_main_0 _ _
    | ⟨1, _⟩ => exact (rhs_main_1 _ _).trans hk)
  rw [el, er]

/-! ### The projection: rows of the activations against columns of the right factor -/

theorem lhs_proj_0 (i : S2048x64.Idx) (q : dot_S2048x256_S256x64_S2048x64_1_0_0_1_n_n.contr.Idx) :
    (dot_S2048x256_S256x64_S2048x64_1_0_0_1_n_n.lhsIdx i q 0).val = (i 0).val := by
  unfold DotDims.lhsIdx
  rw [dif_neg (show ¬(0 : Fin S2048x256.rank) ∈ dot_S2048x256_S256x64_S2048x64_1_0_0_1_n_n.lhsBatch by decide), dif_pos (show (0 : Fin S2048x256.rank) ∈ dot_S2048x256_S256x64_S2048x64_1_0_0_1_n_n.lhsNonContracting by decide)]
  rfl
theorem lhs_proj_1 (i : S2048x64.Idx) (q : dot_S2048x256_S256x64_S2048x64_1_0_0_1_n_n.contr.Idx) :
    (dot_S2048x256_S256x64_S2048x64_1_0_0_1_n_n.lhsIdx i q 1).val = (q ⟨0, by decide⟩).val :=
  dot_S2048x256_S256x64_S2048x64_1_0_0_1_n_n.lhsIdx_val_of_single rfl i q
theorem rhs_proj_0 (i : S2048x64.Idx) (q : dot_S2048x256_S256x64_S2048x64_1_0_0_1_n_n.contr.Idx) :
    (dot_S2048x256_S256x64_S2048x64_1_0_0_1_n_n.rhsIdx i q 0).val = (q ⟨0, by decide⟩).val :=
  dot_S2048x256_S256x64_S2048x64_1_0_0_1_n_n.rhsIdx_val_of_single rfl i q
theorem rhs_proj_1 (i : S2048x64.Idx) (q : dot_S2048x256_S256x64_S2048x64_1_0_0_1_n_n.contr.Idx) :
    (dot_S2048x256_S256x64_S2048x64_1_0_0_1_n_n.rhsIdx i q 1).val = (i 1).val := by
  unfold DotDims.rhsIdx
  rw [dif_neg (show ¬(1 : Fin S256x64.rank) ∈ dot_S2048x256_S256x64_S2048x64_1_0_0_1_n_n.rhsBatch by decide), dif_pos (show (1 : Fin S256x64.rank) ∈ dot_S2048x256_S256x64_S2048x64_1_0_0_1_n_n.rhsNonContracting by decide)]
  rfl
/-- The product read at (p, c): the sum over the one contracted coordinate of the operands' products. -/
theorem mm_proj_apply (x : FVec Ideal S2048x256 .bf16) (y : FVec Ideal S256x64 .bf16) (p : Fin 2048) (c : Fin 64) :
    matmul (F := Ideal) dot_S2048x256_S256x64_S2048x64_1_0_0_1_n_n none x y (constant S2048x64 .f32 0x00000000#32) (ix2 p c)
      = ∑ k : Fin 256, x (ix2 p k) * y (ix2 k c) := by
  show FloatOps.matmul dot_S2048x256_S256x64_S2048x64_1_0_0_1_n_n none x y (constant S2048x64 .f32 0x00000000#32) (ix2 p c) = _
  rw [Ideal.matmul_constant_zero_apply, ← Equiv.sum_comp (ValueIdx.contrEquiv1 dot_S2048x256_S256x64_S2048x64_1_0_0_1_n_n 256 rfl rfl).symm]
  refine Finset.sum_congr rfl fun k _ => ?_
  have hk := ValueIdx.contrEquiv1_symm_val dot_S2048x256_S256x64_S2048x64_1_0_0_1_n_n 256 rfl rfl k
  have el : dot_S2048x256_S256x64_S2048x64_1_0_0_1_n_n.lhsIdx (ix2 p c) ((ValueIdx.contrEquiv1 dot_S2048x256_S256x64_S2048x64_1_0_0_1_n_n 256 rfl rfl).symm k) = ix2 p k := funext fun a => Fin.ext (by
    match a with
    | ⟨0, _⟩ => exact lhs_proj_0 _ _
    | ⟨1, _⟩ => exact (lhs_proj_1 _ _).trans hk)
  have er : dot_S2048x256_S256x64_S2048x64_1_0_0_1_n_n.rhsIdx (ix2 p c) ((ValueIdx.contrEquiv1 dot_S2048x256_S256x64_S2048x64_1_0_0_1_n_n 256 rfl rfl).symm k) = ix2 k c := funext fun a => Fin.ext (by
    match a with
    | ⟨0, _⟩ => exact (rhs_proj_0 _ _).trans hk
    | ⟨1, _⟩ => exact rhs_proj_1 _ _)
  rw [el, er]

/-! ### The rank-64 correction: rows of the weighted projection against rows of the left factor -/

theorem lhs_corr_0 (i : S2048x1024.Idx) (q : dot_S2048x64_S1024x64_S2048x1024_1_1_0_0_n_n.contr.Idx) :
    (dot_S2048x64_S1024x64_S2048x1024_1_1_0_0_n_n.lhsIdx i q 0).val = (i 0).val := by
  unfold DotDims.lhsIdx
  rw [dif_neg (show ¬(0 : Fin S2048x64.rank) ∈ dot_S2048x64_S1024x64_S2048x1024_1_1_0_0_n_n.lhsBatch by decide), dif_pos (show (0 : Fin S2048x64.rank) ∈ dot_S2048x64_S1024x64_S2048x1024_1_1_0_0_n_n.lhsNonContracting by decide)]
  rfl
theorem lhs_corr_1 (i : S2048x1024.Idx) (q : dot_S2048x64_S1024x64_S2048x1024_1_1_0_0_n_n.contr.Idx) :
    (dot_S2048x64_S1024x64_S2048x1024_1_1_0_0_n_n.lhsIdx i q 1).val = (q ⟨0, by decide⟩).val :=
  dot_S2048x64_S1024x64_S2048x1024_1_1_0_0_n_n.lhsIdx_val_of_single rfl i q
theorem rhs_corr_0 (i : S2048x1024.Idx) (q : dot_S2048x64_S1024x64_S2048x1024_1_1_0_0_n_n.contr.Idx) :
    (dot_S2048x64_S1024x64_S2048x1024_1_1_0_0_n_n.rhsIdx i q 0).val = (i 1).val := by
  unfold DotDims.rhsIdx
  rw [dif_neg (show ¬(0 : Fin S1024x64.rank) ∈ dot_S2048x64_S1024x64_S2048x1024_1_1_0_0_n_n.rhsBatch by decide), dif_pos (show (0 : Fin S1024x64.rank) ∈ dot_S2048x64_S1024x64_S2048x1024_1_1_0_0_n_n.rhsNonContracting by decide)]
  rfl
theorem rhs_corr_1 (i : S2048x1024.Idx) (q : dot_S2048x64_S1024x64_S2048x1024_1_1_0_0_n_n.contr.Idx) :
    (dot_S2048x64_S1024x64_S2048x1024_1_1_0_0_n_n.rhsIdx i q 1).val = (q ⟨0, by decide⟩).val :=
  dot_S2048x64_S1024x64_S2048x1024_1_1_0_0_n_n.rhsIdx_val_of_single rfl i q
/-- The product read at (p, c): the sum over the one contracted coordinate of the operands' products. -/
theorem mm_corr_apply (x : FVec Ideal S2048x64 .bf16) (y : FVec Ideal S1024x64 .bf16) (p : Fin 2048) (c : Fin 1024) :
    matmul (F := Ideal) dot_S2048x64_S1024x64_S2048x1024_1_1_0_0_n_n none x y (constant S2048x1024 .f32 0x00000000#32) (ix2 p c)
      = ∑ k : Fin 64, x (ix2 p k) * y (ix2 c k) := by
  show FloatOps.matmul dot_S2048x64_S1024x64_S2048x1024_1_1_0_0_n_n none x y (constant S2048x1024 .f32 0x00000000#32) (ix2 p c) = _
  rw [Ideal.matmul_constant_zero_apply, ← Equiv.sum_comp (ValueIdx.contrEquiv1 dot_S2048x64_S1024x64_S2048x1024_1_1_0_0_n_n 64 rfl rfl).symm]
  refine Finset.sum_congr rfl fun k _ => ?_
  have hk := ValueIdx.contrEquiv1_symm_val dot_S2048x64_S1024x64_S2048x1024_1_1_0_0_n_n 64 rfl rfl k
  have el : dot_S2048x64_S1024x64_S2048x1024_1_1_0_0_n_n.lhsIdx (ix2 p c) ((ValueIdx.contrEquiv1 dot_S2048x64_S1024x64_S2048x1024_1_1_0_0_n_n 64 rfl rfl).symm k) = ix2 p k := funext fun a => Fin.ext (by
    match a with
    | ⟨0, _⟩ => exact lhs_corr_0 _ _
    | ⟨1, _⟩ => exact (lhs_corr_1 _ _).trans hk)
  have er : dot_S2048x64_S1024x64_S2048x1024_1_1_0_0_n_n.rhsIdx (ix2 p c) ((ValueIdx.contrEquiv1 dot_S2048x64_S1024x64_S2048x1024_1_1_0_0_n_n 64 rfl rfl).symm k) = ix2 c k := funext fun a => Fin.ext (by
    match a with
    | ⟨0, _⟩ => exact rhs_corr_0 _ _
    | ⟨1, _⟩ => exact (rhs_corr_1 _ _).trans hk)
  rw [el, er]

/-! ### The scale selection: columns of the scale block against columns of the 0/1 matrix, both contracted along their first axis -/

theorem lhs_scale_0 (i : S1024x256.Idx) (q : dot_S8x1024_S8x256_S1024x256_0_0_1_1_n_n.contr.Idx) :
    (dot_S8x1024_S8x256_S1024x256_0_0_1_1_n_n.lhsIdx i q 0).val = (q ⟨0, by decide⟩).val :=
  dot_S8x1024_S8x256_S1024x256_0_0_1_1_n_n.lhsIdx_val_of_single rfl i q
theorem lhs_scale_1 (i : S1024x256.Idx) (q : dot_S8x1024_S8x256_S1024x256_0_0_1_1_n_n.contr.Idx) :
    (dot_S8x1024_S8x256_S1024x256_0_0_1_1_n_n.lhsIdx i q 1).val = (i 0).val := by
  unfold DotDims.lhsIdx
  rw [dif_neg (show ¬(1 : Fin S8x1024.rank) ∈ dot_S8x1024_S8x256_S1024x256_0_0_1_1_n_n.lhsBatch by decide), dif_pos (show (1 : Fin S8x1024.rank) ∈ dot_S8x1024_S8x256_S1024x256_0_0_1_1_n_n.lhsNonContracting by decide)]
  rfl
theorem rhs_scale_0 (i : S1024x256.Idx) (q : dot_S8x1024_S8x256_S1024x256_0_0_1_1_n_n.contr.Idx) :
    (dot_S8x1024_S8x256_S1024x256_0_0_1_1_n_n.rhsIdx i q 0).val = (q ⟨0, by decide⟩).val :=
  dot_S8x1024_S8x256_S1024x256_0_0_1_1_n_n.rhsIdx_val_of_single rfl i q
theorem rhs_scale_1 (i : S1024x256.Idx) (q : dot_S8x1024_S8x256_S1024x256_0_0_1_1_n_n.contr.Idx) :
    (dot_S8x1024_S8x256_S1024x256_0_0_1_1_n_n.rhsIdx i q 1).val = (i 1).val := by
  unfold DotDims.rhsIdx
  rw [dif_neg (show ¬(1 : Fin S8x256.rank) ∈ dot_S8x1024_S8x256_S1024x256_0_0_1_1_n_n.rhsBatch by decide), dif_pos (show (1 : Fin S8x256.rank) ∈ dot_S8x1024_S8x256_S1024x256_0_0_1_1_n_n.rhsNonContracting by decide)]
  rfl
/-- The product read at (p, c): the sum over the one contracted coordinate of the operands' products. -/
theorem mm_scale_apply (x : FVec Ideal S8x1024 .bf16) (y : FVec Ideal S8x256 .bf16) (p : Fin 1024) (c : Fin 256) :
    matmul (F := Ideal) dot_S8x1024_S8x256_S1024x256_0_0_1_1_n_n none x y (constant S1024x256 .f32 0x00000000#32) (ix2 p c)
      = ∑ k : Fin 8, x (ix2 k p) * y (ix2 k c) := by
  show FloatOps.matmul dot_S8x1024_S8x256_S1024x256_0_0_1_1_n_n none x y (constant S1024x256 .f32 0x00000000#32) (ix2 p c) = _
  rw [Ideal.matmul_constant_zero_apply, ← Equiv.sum_comp (ValueIdx.contrEquiv1 dot_S8x1024_S8x256_S1024x256_0_0_1_1_n_n 8 rfl rfl).symm]
  refine Finset.sum_congr rfl fun k _ => ?_
  have hk := ValueIdx.contrEquiv1_symm_val dot_S8x1024_S8x256_S1024x256_0_0_1_1_n_n 8 rfl rfl k
  have el : dot_S8x1024_S8x256_S1024x256_0_0_1_1_n_n.lhsIdx (ix2 p c) ((ValueIdx.contrEquiv1 dot_S8x1024_S8x256_S1024x256_0_0_1_1_n_n 8 rfl rfl).symm k) = ix2 k p := funext fun a => Fin.ext (by
    match a with
    | ⟨0, _⟩ => exact (lhs_scale_0 _ _).trans hk
    | ⟨1, _⟩ => exact lhs_scale_1 _ _)
  have er : dot_S8x1024_S8x256_S1024x256_0_0_1_1_n_n.rhsIdx (ix2 p c) ((ValueIdx.contrEquiv1 dot_S8x1024_S8x256_S1024x256_0_0_1_1_n_n 8 rfl rfl).symm k) = ix2 k c := funext fun a => Fin.ext (by
    match a with
    | ⟨0, _⟩ => exact (rhs_scale_0 _ _).trans hk
    | ⟨1, _⟩ => exact rhs_scale_1 _ _)
  rw [el, er]

/-! ## The two reset values -/

/-- The reset value of the main running sum is zero everywhere. -/
theorem pay5_apply (i : S2048x1024.Idx) : k0_pay5 (F := Ideal) i = 0 := by
  unfold k0_pay5
  rw [shapeCast_self]
  exact Ideal.ofBits_zero_f32

/-- The reset value of the projection's running sum is zero everywhere. -/
theorem pay6_apply (i : S2048x64.Idx) : k0_pay6 (F := Ideal) i = 0 := by
  unfold k0_pay6
  rw [shapeCast_self]
  exact Ideal.ofBits_zero_f32

/-! ## The 0/1 selection matrix and the effective weights -/

/-- One word of the selection matrix from the column-index word `c` and the row-index word `r`, as the body computes
    it: `c` divided by 32 toward zero, lowered by one where the signs of `c` and of 32 differ and the division is
    inexact (together: the floor of the quotient), compared with `r`, the one-bit answer widened to 32 bits. -/
def selWord (c r : BitVec 32) : BitVec 32 :=
  (IntOp.cmpi .eq
    (Scalar.select
      (IntOp.andi
        (IntOp.cmpi .ne
          (IntOp.subi ((IntOp.cmpi .sgt c 0#32).setWidth 32) ((IntOp.cmpi .slt c 0#32).setWidth 32))
          (Scalar.subi (Scalar.extui (Scalar.cmpi .sgt 32#32 0#32)) (Scalar.extui (Scalar.cmpi .slt 32#32 0#32))))
        (IntOp.cmpi .ne (IntOp.remsi .vector c 32#32) 0#32))
      (IntOp.subi (IntOp.divsi .vector c 32#32) 1#32)
      (IntOp.divsi .vector c 32#32))
    r).setWidth 32

/-- On a column index below 256 and a row index below 8 the word is 1 where the column's group of 32 is the row, else
    0: a finite check over the 8 · 256 pairs. -/
theorem selWord_eq : ∀ b : Fin 8, ∀ kk : Fin 256,
    selWord (BitVec.ofNat 32 kk.val) (BitVec.ofNat 32 b.val) = if kk.val / 32 = b.val then 1#32 else 0#32 := by
  decide +kernel

/-- The selection matrix as an integer vector: the body's chain from the two index vectors to the widened comparison. -/
def selVec : IVec S8x256 32 :=
  have v3 : IVec S8x256 32 := iota .tc S8x256 32 [1] iota_S8x256_d1_w32
  have v4 : IVec S8x256 32 := iota .tc S8x256 32 [0] iota_S8x256_d0_w32
  have v5 : IVec S8x256 32 := broadcast S8x256 32#32
  have v6 : IVec S8x256 32 := divsi v3 v5
  have v7 : IVec S8x256 32 := broadcast S8x256 0#32
  have v8 : IVec S8x256 1 := cmpi .sgt v3 v7
  have v9 : IVec S8x256 32 := extui 32 v8 natLt_1_32
  have v10 : IVec S8x256 32 := broadcast S8x256 0#32
  have v11 : IVec S8x256 1 := cmpi .slt v3 v10
  have v12 : IVec S8x256 32 := extui 32 v11 natLt_1_32
  have v13 : IVec S8x256 32 := subi v9 v12
  let v14 : BitVec 1 := Scalar.cmpi .sgt 32#32 0#32
  let v15 : BitVec 32 := Scalar.extui v14
  let v16 : BitVec 1 := Scalar.cmpi .slt 32#32 0#32
  let v17 : BitVec 32 := Scalar.extui v16
  let v18 : BitVec 32 := Scalar.subi v15 v17
  have v19 : IVec S8x256 32 := broadcast S8x256 v18
  have v20 : IVec S8x256 1 := cmpi .ne v13 v19
  have v21 : IVec S8x256 32 := broadcast S8x256 32#32
  have v22 : IVec S8x256 32 := remsi v3 v21
  have v23 : IVec S8x256 32 := broadcast S8x256 0#32
  have v24 : IVec S8x256 1 := cmpi .ne v22 v23
  have v25 : IVec S8x256 1 := andi v20 v24
  have v26 : IVec S8x256 32 := broadcast S8x256 1#32
  have v27 : IVec S8x256 32 := subi v6 v26
  have v28 : IVec S8x256 32 := select v25 v27 v6
  have v29 : IVec S8x256 1 := cmpi .eq v28 v4
  have v30 : IVec S8x256 32 := extui 32 v29 natLt_1_32
  v30

/-- Entry (b, kk) of the selection matrix: 1 where `kk / 32 = b`, else 0. Every operation of the chain is pointwise,
    so the entry is the word function of the two index vectors' entries, which are the coordinates `kk` and `b`. -/
theorem selVec_apply (b : Fin 8) (kk : Fin 256) :
    selVec (ix2 b kk) = if kk.val / 32 = b.val then 1#32 else 0#32 := by
  have h : selVec (ix2 b kk) = selWord (iota .tc S8x256 32 [1] iota_S8x256_d1_w32 (ix2 b kk))
      (iota .tc S8x256 32 [0] iota_S8x256_d0_w32 (ix2 b kk)) := rfl
  rw [h, iota_single_apply, iota_single_apply]
  exact selWord_eq b kk

/-- The integer 1 converts to the extended real 1 … -/
theorem sitofp_one : FloatOps.sitofp (F := Ideal) .f32 (1#32 : BitVec 32) = (1 : EReal) := by
  show (((1#32 : BitVec 32).toInt : ℝ) : EReal) = 1
  rw [show (1#32 : BitVec 32).toInt = 1 by decide, Int.cast_one, EReal.coe_one]
/-- … and the integer 0 to 0. -/
theorem sitofp_zero : FloatOps.sitofp (F := Ideal) .f32 (0#32 : BitVec 32) = (0 : EReal) := by
  show (((0#32 : BitVec 32).toInt : ℝ) : EReal) = 0
  rw [show (0#32 : BitVec 32).toInt = 0 by decide, Int.cast_zero, EReal.coe_zero]

/-- The effective-weight block as one expression over the selection matrix. -/
theorem pay7_eq (sc : Vec Ideal S8x1024 .f32) (w : Vec Ideal S1024x256 .bf16) :
    k0_pay7 sc w = truncf .bf16 (mulf (extf .f32 (shapeCast S1024x256 w shapeCasts_S1024x256_S1024x256) bitsLt_bf16_f32)
      (matmul dot_S8x1024_S8x256_S1024x256_0_0_1_1_n_n none
        (truncf .bf16 (shapeCast S8x1024 sc shapeCasts_S8x1024_S8x1024) bitsLt_bf16_f32)
        (truncf .bf16 (sitofp (F := Ideal) .f32 selVec) bitsLt_bf16_f32)
        (constant S1024x256 .f32 0x00000000#32))) bitsLt_bf16_f32 := rfl

/-- The effective-weight block: entry (j, kk) is the stored weight there times the scale of row `kk / 32` of the
    (transposed) scale block at column `j`. -/
theorem pay7_apply (sc : Vec Ideal S8x1024 .f32) (w : Vec Ideal S1024x256 .bf16) (j : Fin 1024) (kk : Fin 256) :
    k0_pay7 sc w (ix2 j kk) = w (ix2 j kk) * sc (ix2 (⟨kk.val / 32, by have := kk.isLt; omega⟩ : Fin 8) j) := by
  rw [pay7_eq, truncf_apply, mulf_apply, extf_apply, shapeCast_self, shapeCast_self, mm_scale_apply]
  refine congrArg (w (ix2 j kk) * ·) ?_
  -- of the eight products only the one at row kk / 32 is not a product with 0
  refine (Fintype.sum_eq_single (⟨kk.val / 32, by have := kk.isLt; omega⟩ : Fin 8) fun b hb => ?_).trans ?_
  · rw [truncf_apply, truncf_apply, sitofp_apply, selVec_apply,
      if_neg (fun e => hb (Fin.ext e.symm)), sitofp_zero, mul_zero]
  · rw [truncf_apply, truncf_apply, sitofp_apply, selVec_apply, if_pos rfl, sitofp_one, mul_one]

/-! ## The running sums and the closing value -/

/-- One step of the main running sum: what was there plus the tile's 256 products. -/
theorem pay2_apply (wd : FVec Ideal S1024x256 .bf16) (x : Vec Ideal S2048x256 .bf16) (acc : Vec Ideal S2048x1024 .f32)
    (r : Fin 2048) (j : Fin 1024) :
    k0_pay2 wd x acc (ix2 r j) = acc (ix2 r j) + ∑ kk : Fin 256, x (ix2 r kk) * wd (ix2 j kk) := by
  unfold k0_pay2 k0_pay1
  rw [shapeCast_self, shapeCast_self, addf_apply, mm_main_apply]

/-- One step of the projection's running sum. -/
theorem pay3_apply (x : Vec Ideal S2048x256 .bf16) (v : Vec Ideal S256x64 .f32) (h : Vec Ideal S2048x64 .f32)
    (r : Fin 2048) (q : Fin 64) :
    k0_pay3 x v h (ix2 r q) = h (ix2 r q) + ∑ kk : Fin 256, x (ix2 r kk) * v (ix2 kk q) := by
  unfold k0_pay3 k0_pay1
  rw [shapeCast_self, shapeCast_self, addf_apply, mm_proj_apply]
  rfl

/-- The closing value: running sum, plus the weighted projection against the left factor, plus the bias. -/
theorem pay4_apply (h : Vec Ideal S2048x64 .f32) (s : Vec Ideal S1x64 .f32) (u : Vec Ideal S1024x64 .f32)
    (acc : Vec Ideal S2048x1024 .f32) (b : Vec Ideal S1x1024 .f32) (r : Fin 2048) (j : Fin 1024) :
    k0_pay4 h s u acc b (ix2 r j)
      = (acc (ix2 r j) + ∑ q : Fin 64, (h (ix2 r q) * s (ix2 (0 : Fin 1) q)) * u (ix2 j q)) + b (ix2 (0 : Fin 1) j) := by
  unfold k0_pay4
  rw [shapeCast_self, shapeCast_self, addf_apply, addf_apply, mm_corr_apply, broadcastTo_1b_ab_apply]
  refine congrArg (fun t => acc (ix2 r j) + t + b (ix2 (0 : Fin 1) j)) (Finset.sum_congr rfl fun q _ => ?_)
  rw [truncf_apply, truncf_apply, mulf_apply, broadcastTo_1b_ab_apply]

end Cert.QLin.Pay

end
-- ==== Proof.Blocks.lean ====
/-
  Each window's block at a grid point, read at an entry, is the argument array at the entry's place in the whole: the
  point (bi, bj, ks) = (t / 64, t / 16 % 4, t % 16) takes rows 2048·bi.. of the activations, rows 1024·bj.. of the
  per-output-feature arrays, and columns / rows 256·ks.. along the input features (8·ks.. of the scale groups, the scale
  array being read transposed); the format changes and the reshapes ahead of the kernel do not change a value.
-/
import proofs.«163543_j85289460564390_1_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

noncomputable section

namespace Cert.QLin.Blk

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ)

/-! ### What the region finds in the arrays the host operations wrote -/

/-- The activations in the kernel's format: a format change keeps every value. -/
theorem V_v0 (c : Dev nD) : (V m c main_v0 : Vec Ideal S8192x4096 .bf16)
    = (truncf (F := Ideal) (s := S8192x4096) .bf16 (m ((c : Thread nD τ).loc main_arg0)) bitsLt_bf16_f32 : FVec Ideal S8192x4096 .bf16) := by
  dsimp only [Gen.V, Gen.hostOps0]; after_results

/-- The stored weight in the kernel's format: a format change keeps every value. -/
theorem V_v1 (c : Dev nD) : (V m c main_v1 : Vec Ideal S4096x4096 .bf16)
    = (truncf (F := Ideal) (s := S4096x4096) .bf16 (m ((c : Thread nD τ).loc main_arg1)) bitsLt_bf16_f32 : FVec Ideal S4096x4096 .bf16) := by
  dsimp only [Gen.V, Gen.hostOps0]; after_results

/-- The scales, transposed. -/
theorem V_v2 (c : Dev nD) : (V m c main_v2 : Vec Ideal S128x4096 .f32)
    = transpose S128x4096 [1, 0] (m ((c : Thread nD τ).loc main_arg2)) transposes_S4096x128_S128x4096_1_0 := by
  dsimp only [Gen.V, Gen.hostOps0]; after_results

/-- The bias as one row. -/
theorem V_v3 (c : Dev nD) : (V m c main_v3 : Vec Ideal S1x4096 .f32)
    = shapeCast S1x4096 (m ((c : Thread nD τ).loc main_arg3)) shapeCasts_S4096_S1x4096 := by
  dsimp only [Gen.V, Gen.hostOps0]; after_results; rfl

/-- The singular weights as one row. -/
theorem V_v4 (c : Dev nD) : (V m c main_v4 : Vec Ideal S1x64 .f32)
    = shapeCast S1x64 (m ((c : Thread nD τ).loc main_arg5)) shapeCasts_S64_S1x64 := by
  dsimp only [Gen.V, Gen.hostOps0]; after_results; rfl

/-! ### The windows' block indices over the grid -/

theorem idx0 : ∀ t : Fin cfg0.N, win0_0.index t 0 = t.val / 64 ∧ win0_0.index t 1 = t.val % 16 :=
  (by decide +kernel : ∀ t : Fin grid0.N, _)
theorem idx1 : ∀ t : Fin cfg0.N, win0_1.index t 0 = t.val / 16 % 4 ∧ win0_1.index t 1 = t.val % 16 :=
  (by decide +kernel : ∀ t : Fin grid0.N, _)
theorem idx2 : ∀ t : Fin cfg0.N, win0_2.index t 0 = t.val % 16 ∧ win0_2.index t 1 = t.val / 16 % 4 :=
  (by decide +kernel : ∀ t : Fin grid0.N, _)
theorem idx3 : ∀ t : Fin cfg0.N, win0_3.index t 0 = 0 ∧ win0_3.index t 1 = t.val / 16 % 4 :=
  (by decide +kernel : ∀ t : Fin grid0.N, _)
theorem idx4 : ∀ t : Fin cfg0.N, win0_4.index t 0 = t.val % 16 ∧ win0_4.index t 1 = 0 :=
  (by decide +kernel : ∀ t : Fin grid0.N, _)
theorem idx5 : ∀ t : Fin cfg0.N, win0_5.index t 0 = t.val / 16 % 4 ∧ win0_5.index t 1 = 0 :=
  (by decide +kernel : ∀ t : Fin grid0.N, _)
theorem idx6 : ∀ t : Fin cfg0.N, win0_6.index t 0 = 0 ∧ win0_6.index t 1 = 0 :=
  (by decide +kernel : ∀ t : Fin grid0.N, _)

/-- activations -/
theorem xblk_apply (c : Dev nD) (t : Fin cfg0.N) (r : Fin 2048) (kk : Fin 256) (g : S8192x4096.Idx)
    (h0 : (g 0).val = 2048 * (t.val / 64) + r.val) (h1 : (g 1).val = 256 * (t.val % 16) + kk.val) :
    (iblk m c 0 t : Vec Ideal S2048x256 .bf16) (ix2 r kk) = m ((c : Thread nD τ).loc main_arg0) g := by
  unfold iblk
  rw [View.read_apply]
  show V m c main_v0 _ = _
  rw [V_v0, truncf_apply]
  congr 1
  funext a
  apply Fin.ext
  match a with
  | ⟨0, _⟩ => show win0_0.index t 0 * 2048 + 1 * r.val = (g 0).val; rw [(idx0 t).1, h0]; omega
  | ⟨1, _⟩ => show win0_0.index t 1 * 256 + 1 * kk.val = (g 1).val; rw [(idx0 t).2, h1]; omega

/-- stored weight -/
theorem wblk_apply (c : Dev nD) (t : Fin cfg0.N) (j : Fin 1024) (kk : Fin 256) (g : S4096x4096.Idx)
    (h0 : (g 0).val = 1024 * (t.val / 16 % 4) + j.val) (h1 : (g 1).val = 256 * (t.val % 16) + kk.val) :
    (iblk m c 1 t : Vec Ideal S1024x256 .bf16) (ix2 j kk) = m ((c : Thread nD τ).loc main_arg1) g := by
  unfold iblk
  rw [View.read_apply]
  show V m c main_v1 _ = _
  rw [V_v1, truncf_apply]
  congr 1
  funext a
  apply Fin.ext
  match a with
  | ⟨0, _⟩ => show win0_1.index t 0 * 1024 + 1 * j.val = (g 0).val; rw [(idx1 t).1, h0]; omega
  | ⟨1, _⟩ => show win0_1.index t 1 * 256 + 1 * kk.val = (g 1).val; rw [(idx1 t).2, h1]; omega

/-- scales (the window reads the transposed array: block row `b` is scale group 8·ks + b) -/
theorem sblk_apply (c : Dev nD) (t : Fin cfg0.N) (b : Fin 8) (j : Fin 1024) (g : S4096x128.Idx)
    (h0 : (g 0).val = 1024 * (t.val / 16 % 4) + j.val) (h1 : (g 1).val = 8 * (t.val % 16) + b.val) :
    (iblk m c 2 t : Vec Ideal S8x1024 .f32) (ix2 b j) = m ((c : Thread nD τ).loc main_arg2) g := by
  unfold iblk
  rw [View.read_apply]
  show V m c main_v2 _ = _
  rw [V_v2]
  refine transpose_apply _ _ _ _ g (fun d => ?_)
  match d with
  | ⟨0, _⟩ => show (g 1).val = win0_2.index t 0 * 8 + 1 * b.val; rw [(idx2 t).1, h1]; omega
  | ⟨1, _⟩ => show (g 0).val = win0_2.index t 1 * 1024 + 1 * j.val; rw [(idx2 t).2, h0]; omega

/-- bias (one row) -/
theorem bblk_apply (c : Dev nD) (t : Fin cfg0.N) (z : Fin 1) (j : Fin 1024) (g : S4096.Idx)
    (h0 : (g 0).val = 1024 * (t.val / 16 % 4) + j.val) :
    (iblk m c 3 t : Vec Ideal S1x1024 .f32) (ix2 z j) = m ((c : Thread nD τ).loc main_arg3) g := by
  have hz : z.val = 0 := by omega
  unfold iblk
  rw [View.read_apply]
  show V m c main_v3 _ = _
  rw [V_v3]
  refine shapeCast_apply _ _ _ g ?_
  rw [Shape.rowMajor_val_two, Shape.rowMajor_val_one]
  show (g 0).val = (win0_3.index t 0 * 1 + 1 * z.val) * 4096 + (win0_3.index t 1 * 1024 + 1 * j.val)
  rw [(idx3 t).1, (idx3 t).2, h0, hz]; omega

/-- right factor V (rows along the input features) -/
theorem vblk_apply (c : Dev nD) (t : Fin cfg0.N) (kk : Fin 256) (q : Fin 64) (g : S4096x64.Idx)
    (h0 : (g 0).val = 256 * (t.val % 16) + kk.val) (h1 : (g 1).val = q.val) :
    (iblk m c 4 t : Vec Ideal S256x64 .f32) (ix2 kk q) = m ((c : Thread nD τ).loc main_arg6) g := by
  unfold iblk
  rw [View.read_apply]
  show V m c main_arg6 _ = _
  rw [V_main_arg6]
  congr 1
  funext a
  apply Fin.ext
  match a with
  | ⟨0, _⟩ => show win0_4.index t 0 * 256 + 1 * kk.val = (g 0).val; rw [(idx4 t).1, h0]; omega
  | ⟨1, _⟩ => show win0_4.index t 1 * 64 + 1 * q.val = (g 1).val; rw [(idx4 t).2, h1]; omega

/-- left factor U (rows along the output features) -/
theorem ublk_apply (c : Dev nD) (t : Fin cfg0.N) (j : Fin 1024) (q : Fin 64) (g : S4096x64.Idx)
    (h0 : (g 0).val = 1024 * (t.val / 16 % 4) + j.val) (h1 : (g 1).val = q.val) :
    (iblk m c 5 t : Vec Ideal S1024x64 .f32) (ix2 j q) = m ((c : Thread nD τ).loc main_arg4) g := by
  unfold iblk
  rw [View.read_apply]
  show V m c main_arg4 _ = _
  rw [V_main_arg4]
  congr 1
  funext a
  apply Fin.ext
  match a with
  | ⟨0, _⟩ => show win0_5.index t 0 * 1024 + 1 * j.val = (g 0).val; rw [(idx5 t).1, h0]; omega
  | ⟨1, _⟩ => show win0_5.index t 1 * 64 + 1 * q.val = (g 1).val; rw [(idx5 t).2, h1]; omega

/-- singular weights (one row, the same at every point) -/
theorem svblk_apply (c : Dev nD) (t : Fin cfg0.N) (z : Fin 1) (q : Fin 64) (g : S64.Idx)
    (h0 : (g 0).val = q.val) :
    (iblk m c 6 t : Vec Ideal S1x64 .f32) (ix2 z q) = m ((c : Thread nD τ).loc main_arg5) g := by
  have hz : z.val = 0 := by omega
  unfold iblk
  rw [View.read_apply]
  show V m c main_v4 _ = _
  rw [V_v4]
  refine shapeCast_apply _ _ _ g ?_
  rw [Shape.rowMajor_val_two, Shape.rowMajor_val_one]
  show (g 0).val = (win0_6.index t 0 * 1 + 1 * z.val) * 64 + (win0_6.index t 1 * 64 + 1 * q.val)
  rw [(idx6 t).1, (idx6 t).2, h0, hz]; omega

end Cert.QLin.Blk

end
-- ==== Proof.Fold.lean ====
/-
  The two running sums after a tile, as sums over the input features seen so far. The grid point t = (bi·4 + bj)·16 + ks
  works on rows 2048·bi.. of the activations, output features 1024·bj.., and the ks-th tile of 256 input features; the
  sums restart at ks = 0 and each later tile adds its 256 products, so after the tile ks = 15 they hold the sums over
  all 4096 input features: the main product against the effective weights, and the projection on the right factor.
  The output block written at ks = 15 is then the specification's value at the block's place in the whole array.
-/
import proofs.«163543_j85289460564390_1_alg».proof.Proof.Gen.KernelIdeal.Value
import proofs.«163543_j85289460564390_1_alg».proof.Proof.Spec
import proofs.«163543_j85289460564390_1_alg».proof.Proof.Pieces
import proofs.«163543_j85289460564390_1_alg».proof.Proof.Payload
import proofs.«163543_j85289460564390_1_alg».proof.Proof.Blocks
import Idealize.ShloMosaic.Lib.Pipeline.Value
import Idealize.ShloMosaic.Lib.ValueIdx

set_option maxRecDepth 16384

noncomputable section

open scoped BigOperators

namespace Cert.QLin.Fold

open Idealize.ShloMosaic Idealize.ShloMosaic.TcCoe Idealize.ShloMosaic.ValueIdx Idealize.SL.Sem
open Cert.KernelIdeal Cert.KernelIdeal.Gen Cert.KernelIdeal.Value
open Idealize.ShloMosaic.Pipeline (Dat)

variable (m : (ℓ : Loc nD τ sig) → Buf (Elt Ideal) ℓ)

/-! ## The blocks a point works on, at their literal shapes -/

abbrev xb (c : Dev nD) (t : Fin cfg0.N) : Vec Ideal S2048x256 .bf16 := iblk m c 0 t
abbrev wb (c : Dev nD) (t : Fin cfg0.N) : Vec Ideal S1024x256 .bf16 := iblk m c 1 t
abbrev sb (c : Dev nD) (t : Fin cfg0.N) : Vec Ideal S8x1024 .f32 := iblk m c 2 t
abbrev bb (c : Dev nD) (t : Fin cfg0.N) : Vec Ideal S1x1024 .f32 := iblk m c 3 t
abbrev vb (c : Dev nD) (t : Fin cfg0.N) : Vec Ideal S256x64 .f32 := iblk m c 4 t
abbrev ub (c : Dev nD) (t : Fin cfg0.N) : Vec Ideal S1024x64 .f32 := iblk m c 5 t
abbrev svb (c : Dev nD) (t : Fin cfg0.N) : Vec Ideal S1x64 .f32 := iblk m c 6 t

/-! ## One point's step of each sum, as the body's arithmetic -/

/-- At the first tile of a run the main sum is the tile's products over zero, whatever was there. -/
theorem sum_first (c : Dev nD) (n : ℕ) (hb : n < cfg0.N) (h0 : n % 16 = 0) (acc : Vec Ideal S2048x1024 .f32) :
    scAt0_0 m c n hb acc = k0_pay2 (k0_pay7 (sb m c (⟨n, hb⟩ : Fin cfg0.N)) (wb m c (⟨n, hb⟩ : Fin cfg0.N))) (xb m c (⟨n, hb⟩ : Fin cfg0.N)) (k0_pay5 (F := Ideal)) := by
  have h1 : ¬ n % 16 = 15 := by omega
  unfold scAt0_0
  rw [dif_pos h0, dif_neg h1]
  exact Piece.sumA c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) _ _ (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N))

/-- At a later tile it is the tile's products over what the tile before left. -/
theorem sum_step (c : Dev nD) (n : ℕ) (hb : n < cfg0.N) (h0 : ¬ n % 16 = 0) (acc : Vec Ideal S2048x1024 .f32) :
    scAt0_0 m c n hb acc = k0_pay2 (k0_pay7 (sb m c (⟨n, hb⟩ : Fin cfg0.N)) (wb m c (⟨n, hb⟩ : Fin cfg0.N))) (xb m c (⟨n, hb⟩ : Fin cfg0.N)) acc := by
  unfold scAt0_0
  rw [dif_neg h0]
  by_cases h1 : n % 16 = 15
  · rw [dif_pos h1]
    exact Piece.sumC c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) _ _ (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc (outsAt0 m c ((⟨n, hb⟩ : Fin cfg0.N).val - 1) (Nat.lt_of_le_of_lt (Nat.sub_le _ _) (⟨n, hb⟩ : Fin cfg0.N).isLt)).2.2
  · rw [dif_neg h1]
    exact Piece.sumB c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) _ _ (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc (outsAt0 m c ((⟨n, hb⟩ : Fin cfg0.N).val - 1) (Nat.lt_of_le_of_lt (Nat.sub_le _ _) (⟨n, hb⟩ : Fin cfg0.N).isLt)).2.2

/-- The projection's sum at the first tile of a run. -/
theorem proj_first (c : Dev nD) (n : ℕ) (hb : n < cfg0.N) (h0 : n % 16 = 0) (acc : Vec Ideal S2048x64 .f32) :
    scAt0_1 m c n hb acc = k0_pay3 (xb m c (⟨n, hb⟩ : Fin cfg0.N)) (vb m c (⟨n, hb⟩ : Fin cfg0.N)) (k0_pay6 (F := Ideal)) := by
  have h1 : ¬ n % 16 = 15 := by omega
  unfold scAt0_1
  rw [dif_pos h0, dif_neg h1]
  exact Piece.projA c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) _ _ (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N))

/-- The projection's sum at a later tile. -/
theorem proj_step (c : Dev nD) (n : ℕ) (hb : n < cfg0.N) (h0 : ¬ n % 16 = 0) (acc : Vec Ideal S2048x64 .f32) :
    scAt0_1 m c n hb acc = k0_pay3 (xb m c (⟨n, hb⟩ : Fin cfg0.N)) (vb m c (⟨n, hb⟩ : Fin cfg0.N)) acc := by
  unfold scAt0_1
  rw [dif_neg h0]
  by_cases h1 : n % 16 = 15
  · rw [dif_pos h1]
    exact Piece.projC c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) _ _ (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (outsAt0 m c ((⟨n, hb⟩ : Fin cfg0.N).val - 1) (Nat.lt_of_le_of_lt (Nat.sub_le _ _) (⟨n, hb⟩ : Fin cfg0.N).isLt)).2.1 acc
  · rw [dif_neg h1]
    exact Piece.projB c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) _ _ (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (outsAt0 m c ((⟨n, hb⟩ : Fin cfg0.N).val - 1) (Nat.lt_of_le_of_lt (Nat.sub_le _ _) (⟨n, hb⟩ : Fin cfg0.N).isLt)).2.1 acc

/-! ## Each tile's addend, and the sums as sums of addends -/

/-- The scale row of local input feature `kk` inside a tile: 32 consecutive features share one. -/
def srow (kk : Fin 256) : Fin 8 := ⟨kk.val / 32, by have := kk.isLt; omega⟩

/-- The main sum's addend at point `n`, entry `i` of the block: the tile's 256 products of an activation with the
    effective weight (zero past the grid, where it is never used). -/
def tileLin (c : Dev nD) (n : ℕ) (i : S2048x1024.Idx) : EReal :=
  if h : n < cfg0.N then
    ∑ kk : Fin 256, xb m c ⟨n, h⟩ (ix2 (⟨(i 0).val, idx2_lt0 i⟩ : Fin 2048) kk)
      * (wb m c ⟨n, h⟩ (ix2 (⟨(i 1).val, idx2_lt1 i⟩ : Fin 1024) kk)
          * sb m c ⟨n, h⟩ (ix2 (srow kk) (⟨(i 1).val, idx2_lt1 i⟩ : Fin 1024)))
  else 0

/-- The projection's addend at point `n`, entry `i`: the tile's 256 products of an activation with the right factor. -/
def tileProj (c : Dev nD) (n : ℕ) (i : S2048x64.Idx) : EReal :=
  if h : n < cfg0.N then
    ∑ kk : Fin 256, xb m c ⟨n, h⟩ (ix2 (⟨(i 0).val, idx2_lt0 i⟩ : Fin 2048) kk)
      * vb m c ⟨n, h⟩ (ix2 kk (⟨(i 1).val, idx2_lt1 i⟩ : Fin 64))
  else 0

/-- A step of the main sum adds the point's addend. -/
theorem pay2_tile (c : Dev nD) (n : ℕ) (hb : n < cfg0.N) (acc : Vec Ideal S2048x1024 .f32) (i : S2048x1024.Idx) :
    k0_pay2 (k0_pay7 (sb m c (⟨n, hb⟩ : Fin cfg0.N)) (wb m c (⟨n, hb⟩ : Fin cfg0.N))) (xb m c (⟨n, hb⟩ : Fin cfg0.N)) acc i = acc i + tileLin m c n i := by
  obtain ⟨r, j, rfl⟩ : ∃ (r : Fin 2048) (j : Fin 1024), i = ix2 r j := ⟨i 0, i 1, eq_ix2 i⟩
  rw [Pay.pay2_apply]
  unfold tileLin
  rw [dif_pos hb]
  refine congrArg (acc (ix2 r j) + ·) (Finset.sum_congr rfl fun kk _ => ?_)
  rw [Pay.pay7_apply]
  rfl

/-- A step of the projection's sum adds the point's addend. -/
theorem pay3_tile (c : Dev nD) (n : ℕ) (hb : n < cfg0.N) (acc : Vec Ideal S2048x64 .f32) (i : S2048x64.Idx) :
    k0_pay3 (xb m c (⟨n, hb⟩ : Fin cfg0.N)) (vb m c (⟨n, hb⟩ : Fin cfg0.N)) acc i = acc i + tileProj m c n i := by
  obtain ⟨r, q, rfl⟩ : ∃ (r : Fin 2048) (q : Fin 64), i = ix2 r q := ⟨i 0, i 1, eq_ix2 i⟩
  rw [Pay.pay3_apply]
  unfold tileProj
  rw [dif_pos hb]

/-- After point `t` the main sum holds the addends of its run's points up to `t`. -/
theorem sum_fold (c : Dev nD) (t : Fin cfg0.N) (i : S2048x1024.Idx) :
    (outsAt0 m c t.val t.isLt).2.1 i
      = 0 + ∑ s ∈ Finset.range (t.val % 16 + 1), tileLin m c (16 * (t.val / 16) + s) i := by
  rw [soutsAt0_0_eq m c t]
  refine Pipeline.accAt_add_apply (fun n h => scAt0_0 m c n h (VS0_0.read (Elt Ideal) VS0_0.junk)) (scAt0_0 m c)
    (fun _ => 0) (tileLin m c) (16 * (t.val / 16)) 15 ?_ ?_ (t.val % 16) (by omega) _ i
  · intro h i
    show scAt0_0 m c _ h _ i = 0 + tileLin m c _ i
    rw [sum_first m c _ h (by omega), pay2_tile, Pay.pay5_apply]
  · intro n h acc i hbn hne
    rw [sum_step m c n h (by omega) acc, pay2_tile]

/-- After point `t` the projection's sum holds the addends of its run's points up to `t`. -/
theorem proj_fold (c : Dev nD) (t : Fin cfg0.N) (i : S2048x64.Idx) :
    (outsAt0 m c t.val t.isLt).2.2 i
      = 0 + ∑ s ∈ Finset.range (t.val % 16 + 1), tileProj m c (16 * (t.val / 16) + s) i := by
  rw [soutsAt0_1_eq m c t]
  refine Pipeline.accAt_add_apply (fun n h => scAt0_1 m c n h (VS0_1.read (Elt Ideal) VS0_1.junk)) (scAt0_1 m c)
    (fun _ => 0) (tileProj m c) (16 * (t.val / 16)) 15 ?_ ?_ (t.val % 16) (by omega) _ i
  · intro h i
    show scAt0_1 m c _ h _ i = 0 + tileProj m c _ i
    rw [proj_first m c _ h (by omega), pay3_tile, Pay.pay6_apply]
  · intro n h acc i hbn hne
    rw [proj_step m c n h (by omega) acc, pay3_tile]

/-! ## From tiles to the whole sum over the input features -/

/-- The argument arrays of the program, in its order. -/
abbrev aX (c : Dev nD) : FVec Ideal SX .f32 := m ((c : Thread nD τ).loc main_arg0)
abbrev aW (c : Dev nD) : FVec Ideal SW .f32 := m ((c : Thread nD τ).loc main_arg1)
abbrev aS (c : Dev nD) : FVec Ideal SS .f32 := m ((c : Thread nD τ).loc main_arg2)
abbrev aB (c : Dev nD) : FVec Ideal SB .f32 := m ((c : Thread nD τ).loc main_arg3)
abbrev aU (c : Dev nD) : FVec Ideal SU .f32 := m ((c : Thread nD τ).loc main_arg4)
abbrev aSv (c : Dev nD) : FVec Ideal SR .f32 := m ((c : Thread nD τ).loc main_arg5)
abbrev aV (c : Dev nD) : FVec Ideal SU .f32 := m ((c : Thread nD τ).loc main_arg6)

/-- The main product's term at input feature `k`, as a function of every natural (zero past the features). -/
def linTerm (X : FVec Ideal SX .f32) (W : FVec Ideal SW .f32) (Sc : FVec Ideal SS .f32) (R : Fin 8192) (J : Fin 4096) (k : ℕ) : EReal :=
  if h : k < 4096 then X (ix2 R ⟨k, h⟩) * deq W Sc J ⟨k, h⟩ else 0

/-- The projection's term at input feature `k`, likewise. -/
def projTerm (X : FVec Ideal SX .f32) (Vv : FVec Ideal SU .f32) (R : Fin 8192) (q : Fin 64) (k : ℕ) : EReal :=
  if h : k < 4096 then X (ix2 R ⟨k, h⟩) * Vv (ix2 (⟨k, h⟩ : Fin 4096) q) else 0

theorem lin_eq_sum (X : FVec Ideal SX .f32) (W : FVec Ideal SW .f32) (Sc : FVec Ideal SS .f32) (R : Fin 8192) (J : Fin 4096) :
    lin X W Sc R J = ∑ k : Fin 4096, linTerm X W Sc R J k.val := by
  unfold lin
  refine Finset.sum_congr rfl fun k _ => ?_
  unfold linTerm
  rw [dif_pos k.isLt]

theorem hid_eq_sum (X : FVec Ideal SX .f32) (Vv : FVec Ideal SU .f32) (R : Fin 8192) (q : Fin 64) :
    hid X Vv R q = ∑ k : Fin 4096, projTerm X Vv R q k.val := by
  unfold hid
  refine Finset.sum_congr rfl fun k _ => ?_
  unfold projTerm
  rw [dif_pos k.isLt]

/-- The addend of tile `s` of block-run `q` (rows 2048·(q/4).., output features 1024·(q%4)..) is the main product's
    terms at the tile's 256 input features. -/
theorem tileLin_global (c : Dev nD) (q s : ℕ) (hq : q < 16) (hs : s < 16) (r : Fin 2048) (j : Fin 1024)
    (R : Fin 8192) (J : Fin 4096) (hR : R.val = 2048 * (q / 4) + r.val) (hJ : J.val = 1024 * (q % 4) + j.val) :
    tileLin m c (16 * q + s) (ix2 r j) = ∑ kk : Fin 256, linTerm (aX m c) (aW m c) (aS m c) R J (256 * s + kk.val) := by
  have hn : 16 * q + s < cfg0.N := lt_of_lt_of_eq (by omega) N_0.symm
  unfold tileLin
  rw [dif_pos hn]
  refine Finset.sum_congr rfl fun kk _ => ?_
  have hkk := kk.isLt
  have hk : 256 * s + kk.val < 4096 := by omega
  unfold linTerm
  rw [dif_pos hk]
  unfold deq
  refine congrArg₂ (· * ·) ?_ (congrArg₂ (· * ·) ?_ ?_)
  · exact Blk.xblk_apply m c ⟨16 * q + s, hn⟩ r kk (ix2 R ⟨256 * s + kk.val, hk⟩)
      (by show R.val = 2048 * ((16 * q + s) / 64) + r.val; omega)
      (by show 256 * s + kk.val = 256 * ((16 * q + s) % 16) + kk.val; omega)
  · exact Blk.wblk_apply m c ⟨16 * q + s, hn⟩ j kk (ix2 J ⟨256 * s + kk.val, hk⟩)
      (by show J.val = 1024 * ((16 * q + s) / 16 % 4) + j.val; omega)
      (by show 256 * s + kk.val = 256 * ((16 * q + s) % 16) + kk.val; omega)
  · exact Blk.sblk_apply m c ⟨16 * q + s, hn⟩ (srow kk) j (ix2 J (grp ⟨256 * s + kk.val, hk⟩))
      (by show J.val = 1024 * ((16 * q + s) / 16 % 4) + j.val; omega)
      (by show (256 * s + kk.val) / 32 = 8 * ((16 * q + s) % 16) + kk.val / 32; omega)

/-- The projection's addend of tile `s` likewise. -/
theorem tileProj_global (c : Dev nD) (q s : ℕ) (hq : q < 16) (hs : s < 16) (r : Fin 2048) (p : Fin 64)
    (R : Fin 8192) (hR : R.val = 2048 * (q / 4) + r.val) :
    tileProj m c (16 * q + s) (ix2 r p) = ∑ kk : Fin 256, projTerm (aX m c) (aV m c) R p (256 * s + kk.val) := by
  have hn : 16 * q + s < cfg0.N := lt_of_lt_of_eq (by omega) N_0.symm
  unfold tileProj
  rw [dif_pos hn]
  refine Finset.sum_congr rfl fun kk _ => ?_
  have hkk := kk.isLt
  have hk : 256 * s + kk.val < 4096 := by omega
  unfold projTerm
  rw [dif_pos hk]
  refine congrArg₂ (· * ·) ?_ ?_
  · exact Blk.xblk_apply m c ⟨16 * q + s, hn⟩ r kk (ix2 R ⟨256 * s + kk.val, hk⟩)
      (by show R.val = 2048 * ((16 * q + s) / 64) + r.val; omega)
      (by show 256 * s + kk.val = 256 * ((16 * q + s) % 16) + kk.val; omega)
  · exact Blk.vblk_apply m c ⟨16 * q + s, hn⟩ kk p (ix2 (⟨256 * s + kk.val, hk⟩ : Fin 4096) p)
      (by show 256 * s + kk.val = 256 * ((16 * q + s) % 16) + kk.val; omega)
      rfl

/-- After the last tile of a run the main sum is the whole product. -/
theorem sum_last (c : Dev nD) (t : Fin cfg0.N) (h15 : t.val % 16 = 15) (r : Fin 2048) (j : Fin 1024)
    (R : Fin 8192) (J : Fin 4096) (hR : R.val = 2048 * (t.val / 16 / 4) + r.val) (hJ : J.val = 1024 * (t.val / 16 % 4) + j.val) :
    (outsAt0 m c t.val t.isLt).2.1 (ix2 r j) = lin (aX m c) (aW m c) (aS m c) R J := by
  have hN : t.val < 256 := lt_of_lt_of_eq t.isLt N_0
  rw [sum_fold, h15, zero_add, lin_eq_sum, ← sum_tiles16]
  refine Finset.sum_congr rfl fun s hs => ?_
  exact tileLin_global m c (t.val / 16) s (by omega) (Finset.mem_range.mp hs) r j R J hR hJ

/-- After the last tile of a run the projection's sum is the whole projection. -/
theorem proj_last (c : Dev nD) (t : Fin cfg0.N) (h15 : t.val % 16 = 15) (r : Fin 2048) (p : Fin 64)
    (R : Fin 8192) (hR : R.val = 2048 * (t.val / 16 / 4) + r.val) :
    (outsAt0 m c t.val t.isLt).2.2 (ix2 r p) = hid (aX m c) (aV m c) R p := by
  have hN : t.val < 256 := lt_of_lt_of_eq t.isLt N_0
  rw [proj_fold, h15, zero_add, hid_eq_sum, ← sum_tiles16]
  refine Finset.sum_congr rfl fun s hs => ?_
  exact tileProj_global m c (t.val / 16) s (by omega) (Finset.mem_range.mp hs) r p R hR

/-! ## The block written at the last tile, and the array after the run -/

/-- At the last tile of a run the output block is the closing value over the two sums as that tile leaves them. -/
theorem out_last (c : Dev nD) (t : Fin cfg0.N) (h15 : t.val % 16 = 15) :
    (outsAt0 m c t.val t.isLt).1
      = k0_pay4 ((outsAt0 m c t.val t.isLt).2.2) (svb m c t) (ub m c t) ((outsAt0 m c t.val t.isLt).2.1) (bb m c t) := by
  have h0 : ¬ t.val % 16 = 0 := by omega
  rw [outsAt0_C m c t h0 h15]
  dsimp only
  rw [Piece.outC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) _ _ (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2,
    Piece.sumC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) _ _ (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2,
    Piece.projC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) _ _ (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2]

/-- The block written at the last tile of the run of (bi, bj), entry (r, j), is the specification's value at row
    2048·bi + r, output feature 1024·bj + j. -/
theorem out_at (c : Dev nD) (t : Fin cfg0.N) (h15 : t.val % 16 = 15) (r : Fin 2048) (j : Fin 1024)
    (R : Fin 8192) (J : Fin 4096) (hR : R.val = 2048 * (t.val / 16 / 4) + r.val) (hJ : J.val = 1024 * (t.val / 16 % 4) + j.val) :
    (outsAt0 m c t.val t.isLt).1 (ix2 r j)
      = Gat (aX m c) (aW m c) (aS m c) (aB m c) (aU m c) (aSv m c) (aV m c) R J := by
  rw [out_last m c t h15, Pay.pay4_apply, sum_last m c t h15 r j R J hR hJ]
  unfold Gat low
  refine congrArg₂ (· + ·) (congrArg (lin (aX m c) (aW m c) (aS m c) R J + ·) (Finset.sum_congr rfl fun p _ => ?_)) ?_
  · rw [proj_last m c t h15 r p R hR]
    refine congrArg₂ (· * ·) (congrArg (hid (aX m c) (aV m c) R p * ·) ?_) ?_
    · exact Blk.svblk_apply m c t 0 p (ix1 p) rfl
    · exact Blk.ublk_apply m c t j p (ix2 J p) (by show J.val = 1024 * (t.val / 16 % 4) + j.val; exact hJ) rfl
  · exact Blk.bblk_apply m c t 0 j (ix1 J) (by show J.val = 1024 * (t.val / 16 % 4) + j.val; exact hJ)

/-- Where output block `t` sits in the array: block row t/64, block column t/16 % 4 — decided over the grid. -/
theorem out_index : ∀ t : Fin cfg0.N, win0_7.index t (0 : Fin 2) = t.val / 64 ∧ win0_7.index t (1 : Fin 2) = t.val / 16 % 4 :=
  (by decide +kernel : ∀ t : Fin grid0.N, _)

/-- WHAT A WRITING POINT WRITES BACK is its block of the specification's array. -/
theorem flushed_eq (c : Dev nD) (t : Fin cfg0.N) (hf : (cfg0.win 7).flush t = true) :
    (dats m 0 c).flushed 7 t
      = ((cfg0.win 7).blk t).view.read (Elt Ideal) (G (aX m c) (aW m c) (aS m c) (aB m c) (aU m c) (aSv m c) (aV m c)) := by
  have h15 : t.val % 16 = 15 := (flush0_7 t).mp hf
  have hN : t.val < 256 := lt_of_lt_of_eq t.isLt N_0
  obtain ⟨e0, e1⟩ := out_index t
  rw [flushed7]
  funext y
  obtain ⟨r, j, rfl⟩ : ∃ (r : Fin 2048) (j : Fin 1024), y = ix2 r j := ⟨y 0, y 1, eq_ix2 y⟩
  show (outsAt0 m c t.val t.isLt).1 (ix2 r j)
    = G (aX m c) (aW m c) (aS m c) (aB m c) (aU m c) (aSv m c) (aV m c) (((cfg0.win 7).blk t).view.emb (ix2 r j))
  unfold G
  refine out_at m c t h15 r j _ _ ?_ ?_
  · show win0_7.index t (0 : Fin 2) * 2048 + 1 * r.val = 2048 * (t.val / 16 / 4) + r.val
    rw [e0]; omega
  · show win0_7.index t (1 : Fin 2) * 1024 + 1 * j.val = 1024 * (t.val / 16 % 4) + j.val
    rw [e1]; omega

/-- An index of the array is in point `t`'s block iff each coordinate is in the block's range on its axis. -/
theorem mem_blk (t : Fin cfg0.N) (i : S8192x4096.Idx) :
    i ∈ ((cfg0.win 7).blk t).view.set ↔ ∀ a : Fin 2, win0_7.index t a * S2048x1024.size a ≤ (i a).val ∧ (i a).val < win0_7.index t a * S2048x1024.size a + S2048x1024.size a := by
  show i ∈ ((View.whole main_v5).slice (win0_7.rect t)).set ↔ _
  rw [View.set_slice_whole, Rect.mem_set_unit]
  exact Iff.rfl

/-- Every entry of the array lies in the block some writing point writes: row block i₀ / 2048, column block i₁ / 1024,
    at the last tile of that run. -/
theorem cover (i : S8192x4096.Idx) : ∃ t : Fin cfg0.N, (cfg0.win 7).flush t = true ∧ i ∈ ((cfg0.win 7).blk t).view.set := by
  have h0 : (i 0).val < 8192 := (i 0).isLt
  have h1 : (i 1).val < 4096 := (i 1).isLt
  have hn : ((i 0).val / 2048 * 4 + (i 1).val / 1024) * 16 + 15 < cfg0.N := lt_of_lt_of_eq (by omega) N_0.symm
  refine ⟨⟨((i 0).val / 2048 * 4 + (i 1).val / 1024) * 16 + 15, hn⟩, (flush0_7 _).mpr (by show (((i 0).val / 2048 * 4 + (i 1).val / 1024) * 16 + 15) % 16 = 15; omega), ?_⟩
  obtain ⟨e0, e1⟩ := out_index ⟨((i 0).val / 2048 * 4 + (i 1).val / 1024) * 16 + 15, hn⟩
  rw [mem_blk]
  intro a
  match a with
  | ⟨0, _⟩ =>
    show win0_7.index _ (0 : Fin 2) * 2048 ≤ (i 0).val ∧ (i 0).val < win0_7.index _ (0 : Fin 2) * 2048 + 2048
    rw [e0]
    show (((i 0).val / 2048 * 4 + (i 1).val / 1024) * 16 + 15) / 64 * 2048 ≤ (i 0).val ∧ (i 0).val < (((i 0).val / 2048 * 4 + (i 1).val / 1024) * 16 + 15) / 64 * 2048 + 2048
    omega
  | ⟨1, _⟩ =>
    show win0_7.index _ (1 : Fin 2) * 1024 ≤ (i 1).val ∧ (i 1).val < win0_7.index _ (1 : Fin 2) * 1024 + 1024
    rw [e1]
    show (((i 0).val / 2048 * 4 + (i 1).val / 1024) * 16 + 15) / 16 % 4 * 1024 ≤ (i 1).val ∧ (i 1).val < (((i 0).val / 2048 * 4 + (i 1).val / 1024) * 16 + 15) / 16 % 4 * 1024 + 1024
    omega

/-- The result array after the run is the specification's function of the arguments. -/
theorem final (c : Dev nD) :
    (dats m 0 c).arrAt 7 cfg0.N = G (aX m c) (aW m c) (aS m c) (aB m c) (aU m c) (aSv m c) (aV m c) :=
  (dats m 0 c).arrAt_eq_of_cover 7 (G (aX m c) (aW m c) (aS m c) (aB m c) (aU m c) (aSv m c) (aV m c)) (flushed_eq m c) cover

/-- The kernel's run, with its result named as the specification's function and its arguments unchanged. -/
theorem run (ρ : Dev nD → PrngReg) : θ_run defs (onTc (τ := τ) (main (F := Ideal))) ⟨m, fun _ => 0, ρ⟩ fun r => ∀ c : Dev nD,
      r.2.mem ((c : Thread nD τ).loc main_v5) = G (aX m c) (aW m c) (aS m c) (aB m c) (aU m c) (aSv m c) (aV m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (run_blocks m ρ)

end Cert.QLin.Fold

end
-- ==== Proof.lean ====
/-
  A linear layer with a block-scaled weight and a rank-64 correction, computed tile by tile against the same layer
  computed at once: at the extended reals both programs leave, at token r and output feature j,

      Σ_k x[r,k] · (w[j,k] · s[j, k/32])  +  Σ_q ((Σ_k x[r,k] · v[k,q]) · σ[q]) · u[j,q]  +  b[j].

  The kernel walks a 4 × 4 × 16 grid: for each block of 2048 tokens and 1024 output features it runs over 16 tiles of
  256 input features, keeping two running sums (the main product, with the effective weight rebuilt in each tile by a
  product of the scales with a 0/1 selection matrix, and the projection on v), restarted at the first tile; at the
  last tile it adds the correction and the bias and writes the block. A sum taken tile by tile is the sum taken at
  once (addition of extended reals is commutative and associative), selecting with a 0/1 matrix is exact (x · 0 = 0
  and x · 1 = x for every extended real), a change of float format is the identity, and the three summands are added
  in another order than the reference adds them: no input needs to be finite for any of this, so the precondition is
  never opened. The reference's side is its run read one operation at a time; the frames are the programs' runs with
  the results forgotten; the idealization rewrote nothing.
-/
import proofs.«163543_j85289460564390_1_alg».proof.Defs
import proofs.«163543_j85289460564390_1_alg».proof.Proof.Gen.Kernel
import proofs.«163543_j85289460564390_1_alg».proof.Proof.Gen.Kernel.Frame
import proofs.«163543_j85289460564390_1_alg».proof.Proof.Gen.KernelIdeal
import proofs.«163543_j85289460564390_1_alg».proof.Proof.Gen.KernelIdeal.Frame
import proofs.«163543_j85289460564390_1_alg».proof.Proof.Gen.KernelIdeal.Value
import proofs.«163543_j85289460564390_1_alg».proof.Proof.Gen.ReferenceIdeal
import proofs.«163543_j85289460564390_1_alg».proof.Proof.Gen.ReferenceIdeal.Run
import proofs.«163543_j85289460564390_1_alg».proof.Proof.Gen.ReferenceIdeal.Read
import proofs.«163543_j85289460564390_1_alg».proof.Proof.Gen.Pre_finite_inputs
import proofs.«163543_j85289460564390_1_alg».proof.Proof.Spec
import proofs.«163543_j85289460564390_1_alg».proof.Proof.RefValue
import proofs.«163543_j85289460564390_1_alg».proof.Proof.Fold
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel := fun m ρ _ => Cert.Kernel.Gen.frame m ρ

/-- So does the kernel read at the extended reals. -/
theorem frame_ki : Cert.frame_KernelIdeal := fun m ρ _ => Cert.KernelIdeal.Gen.frame m ρ

/-- The reference's frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From arguments that agree, the kernel ends at the specification's function of them (the tile-by-tile sums regrouped)
    and so does the reference (its composed term read at an entry). -/
theorem algebraic : Cert.algebraic_KernelIdeal_ReferenceIdeal := by
  intro m ρ m' ρ' _ hagree
  refine ⟨fun c => Cert.QLin.G (Cert.QLin.Fold.aX m c) (Cert.QLin.Fold.aW m c) (Cert.QLin.Fold.aS m c) (Cert.QLin.Fold.aB m c)
    (Cert.QLin.Fold.aU m c) (Cert.QLin.Fold.aSv m c) (Cert.QLin.Fold.aV m c), Cert.QLin.Fold.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2.1,
    (hagree c).2.2.2.2.2.2]
  exact (Cert.ReferenceIdeal.Read.val_main_v16_eq _ _ _ _ _ _ _).trans (Cert.QLin.Ref.ref_eq _ _ _ _ _ _ _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
